-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S1600000x4 : Shape := ⟨2, ![1600000, 4]⟩
abbrev S36x8 : Shape := ⟨2, ![36, 8]⟩
abbrev S8 : Shape := ⟨1, ![8]⟩
abbrev S8x1 : Shape := ⟨2, ![8, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S36x8 : S_.BroadcastsInDim S36x8 (![] : Fin 0 → Fin S36x8.rank)
  reducesTo_S36x8_S_d0_1 : S36x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v28 : IVec S_ 1) (main_v33 : IVec S_ 1) : IVec S_ 1 :=
  let main_v34 : IVec S_ 1 := andi main_v28 main_v33
  let main_v35 : IVec S1x1600000 32 := (extractStridedSlice S1x1600000 ![0, 0] · slices_S2x1600000_S1x1600000_0_0) main_arg1
  let main_v36 : IVec S1600000 32 := shapeCast S1600000 main_v35 shapeCasts_S1x1600000_S1600000
  let main_c_12 : IVec S_ 32 := constantI S_ 32 100000#32
  let main_v37 : IVec S1600000 32 := broadcastInDim S1600000 ![] bcast_S_S1600000 main_c_12
  let main_v38 : IVec S1600000 1 := cmpi .slt main_v36 main_v37
  let main_c_13 : IVec S_ 1 := constantI S_ 1 1#1
  let main_v39 : IVec S_ 1 := (fun x v => Host.reduce IntOp.andi x v reducesTo_S1600000_S_d0 h_S_) main_v38 main_c_13
  let main_v40 : IVec S_ 1 := andi main_v34 main_v39
  main_v40

def fn_part1 {F : FTy → Type} [FloatOps F] (main_arg1 : IVec S2x1600000 32) (main_arg5 : FVec F S8x1 .f32) (main_arg6 : FVec F S1 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x1 .f32 := Host.absf main_arg5
  let main_cst_6 : FVec F S_ .f32 := constant S_ .f32 0x7F800000#32
  let main_v20 : FVec F S8x1 .f32 := broadcastInDim S8x1 ![] bcast_S_S8x1 main_cst_6
  let main_v21 : IVec S8x1 1 := cmpf .olt main_v19 main_v20
  let main_c_7 : IVec S_ 1 := constantI S_ 1 1#1
  let main_v22 : IVec S_ 1 := (fun x v => Host.reduce IntOp.andi x v reducesTo_S8x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : IVec S1x1600000 32 := (extractStridedSlice S1x1600000 ![0, 0] · slices_S2x1600000_S1x1600000_0_0) main_arg1
  let main_v30 : IVec S1600000 32 := shapeCast S1600000 main_v29 shapeCasts_S1x1600000_S1600000
  let main_c_10 : IVec S_ 32 := constantI S_ 32 0#32
  let main_v31 : IVec S1600000 32 := broadcastInDim S1600000 ![] bcast_S_S1600000 main_c_10
  let main_v32 : IVec S1600000 1 := cmpi .sge main_v30 main_v31
  let main_c_11 : IVec S_ 1 := constantI S_ 1 1#1
  let main_v33 : IVec S_ 1 := (fun x v => Host.reduce IntOp.andi x v reducesTo_S1600000_S_d0 h_S_) main_v32 main_c_11
  fn_part2 (F := F) main_arg1 main_v28 main_v33

def fn {F : FTy → Type} [FloatOps F] (main_arg0 : FVec F S100000x16 .f32) (main_arg1 : IVec S2x1600000 32) (main_arg2 : FVec F S1600000x4 .f32) (main_arg3 : FVec F S36x8 .f32) (main_arg4 : FVec F S8 .f32) (main_arg5 : FVec F S8x1 .f32) (main_arg6 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S1600000x4 .f32 := Host.absf main_arg2
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S36x8 .f32 := Host.absf main_arg3
  let main_cst_2 : FVec F S_ .f32 := constant S_ .f32 0x7F800000#32
  let main_v10 : FVec F S36x8 .f32 := broadcastInDim S36x8 ![] bcast_S_S36x8 main_cst_2
  let main_v11 : IVec S36x8 1 := cmpf .olt main_v9 main_v10
  let main_c_3 : IVec S_ 1 := constantI S_ 1 1#1
  let main_v12 : IVec S_ 1 := (fun x v => Host.reduce IntOp.andi x v reducesTo_S36x8_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg1 main_arg5 main_arg6 main_v13 main_v16
-- ==== Kernel.lean ====
abbrev S100000x16 : Shape := ⟨2, ![100000, 16]⟩
abbrev S2x1600000 : Shape := ⟨2, ![2, 1600000]⟩
abbrev S1600000x4 : Shape := ⟨2, ![1600000, 4]⟩
abbrev S36x8 : Shape := ⟨2, ![36, 8]⟩
abbrev S8 : Shape := ⟨1, ![8]⟩
abbrev S8x1 : Shape := ⟨2, ![8, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x1 : Shape := ⟨2, ![1, 1]⟩
abbrev S1600000x16 : Shape := ⟨2, ![1600000, 16]⟩
abbrev S16x8 : Shape := ⟨2, ![16, 8]⟩
abbrev S4x8 : Shape := ⟨2, ![4, 8]⟩
abbrev S1x8 : Shape := ⟨2, ![1, 8]⟩
abbrev S20000x16 : Shape := ⟨2, ![20000, 16]⟩
abbrev S20000x4 : Shape := ⟨2, ![20000, 4]⟩
abbrev S20000x1 : Shape := ⟨2, ![20000, 1]⟩
abbrev S20000x8 : Shape := ⟨2, ![20000, 8]⟩

abbrev nBuf : Space → Nat
  | .hbm => 44
  | .vmem => 11
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S1600000x4, .f32⟩
  | .hbm, ⟨3, _⟩ => ⟨S36x8, .f32⟩
  | .hbm, ⟨4, _⟩ => ⟨S8, .f32⟩
  | .hbm, ⟨5, _⟩ => ⟨S8x1, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1, .i32⟩
  | .hbm, ⟨18, _⟩ => ⟨S_, .i32⟩
  | .hbm, ⟨19, _⟩ => ⟨S1600000x1, .i32⟩
  | .hbm, ⟨20, _⟩ => ⟨S1600000x1, .i1⟩
  | .hbm, ⟨21, _⟩ => ⟨S1x1, .i32⟩
  | .hbm, ⟨22, _⟩ => ⟨S1600000x1, .i32⟩
  | .hbm, ⟨23, _⟩ => ⟨S1600000x1, .i1⟩
  | .hbm, ⟨24, _⟩ => ⟨S1600000x1, .i1⟩
  | .hbm, ⟨25, _⟩ => ⟨S_, .i1⟩
  | .hbm, ⟨26, _⟩ => ⟨S1600000, .i1⟩
  | .hbm, ⟨27, _⟩ => ⟨S1600000x16, .f32⟩
  | .hbm, ⟨28, _⟩ => ⟨S1600000x16, .i1⟩
  | .hbm, ⟨29, _⟩ => ⟨S_, .f32⟩
  | .hbm, ⟨30, _⟩ => ⟨S1600000x16, .f32⟩
  | .hbm, ⟨31, _⟩ => ⟨S1600000x16, .f32⟩
  | .hbm, ⟨32, _⟩ => ⟨S16x8, .f32⟩
  | .hbm, ⟨33, _⟩ => ⟨S16x8, .f32⟩
  | .hbm, ⟨34, _⟩ => ⟨S16x8, .f32⟩
  | .hbm, ⟨35, _⟩ => ⟨S4x8, .f32⟩
  | .hbm, ⟨36, _⟩ => ⟨S1600000x16, .bf16⟩
  | .hbm, ⟨37, _⟩ => ⟨S1600000x4, .bf16⟩
  | .hbm, ⟨38, _⟩ => ⟨S16x8, .bf16⟩
  | .hbm, ⟨39, _⟩ => ⟨S4x8, .bf16⟩
  | .hbm, ⟨40, _⟩ => ⟨S8x1, .bf16⟩
  | .hbm, ⟨41, _⟩ => ⟨S1x8, .f32⟩
  | .hbm, ⟨42, _⟩ => ⟨S1x1, .f32⟩
  | .hbm, ⟨43, _⟩ => ⟨S1600000x1, .f32⟩
  | .local _ .vmem, ⟨0, _⟩ => ⟨S20000x16, .bf16⟩
  | .local _ .vmem, ⟨1, _⟩ => ⟨S20000x16, .bf16⟩
  | .local _ .vmem, ⟨2, _⟩ => ⟨S20000x4, .bf16⟩
  | .local _ .vmem, ⟨3, _⟩ => ⟨S20000x4, .bf16⟩
  | .local _ .vmem, ⟨4, _⟩ => ⟨S16x8, .bf16⟩
  | .local _ .vmem, ⟨5, _⟩ => ⟨S4x8, .bf16⟩
  | .local _ .vmem, ⟨6, _⟩ => ⟨S1x8, .f32⟩
  | .local _ .vmem, ⟨7, _⟩ => ⟨S8x1, .bf16⟩
  | .local _ .vmem, ⟨8, _⟩ => ⟨S1x1, .f32⟩
  | .local _ .vmem, ⟨9, _⟩ => ⟨S20000x1, .f32⟩
  | .local _ .vmem, ⟨10, _⟩ => ⟨S20000x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x4 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S20000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x16_0 : S1600000.BroadcastsInDim S1600000x16 (![0] : Fin 1 → Fin S1600000x16.rank)
  bcast_S_S1600000x16 : S_.BroadcastsInDim S1600000x16 (![] : Fin 0 → Fin S1600000x16.rank)
  slices_S36x8_S16x8_0_0 : S36x8.Slices ![0, 0] S16x8
  slices_S36x8_S16x8_16_0 : S36x8.Slices ![16, 0] S16x8
  slices_S36x8_S4x8_32_0 : S36x8.Slices ![32, 0] S4x8
  bitsLt_bf16_f32 : FTy.bits .bf16 < FTy.bits .f32
  shapeCasts_S8_S1x8 : S8.ShapeCasts S1x8
  shapeCasts_S1_S1x1 : S1.ShapeCasts S1x1
  inb_S20000x16_S20000x16_0_0 : ∀ a, (![0, 0] : Fin 2 → Nat) a + S20000x16.size a ≤ S20000x16.size a
  h_S20000x16 : 0 < S20000x16.numel
  shapeCasts_S20000x16_S20000x16 : S20000x16.ShapeCasts S20000x16
  inb_S20000x4_S20000x4_0_0 : ∀ a, (![0, 0] : Fin 2 → Nat) a + S20000x4.size a ≤ S20000x4.size a
  h_S20000x4 : 0 < S20000x4.numel
  shapeCasts_S20000x4_S20000x4 : S20000x4.ShapeCasts S20000x4
  inb_S16x8_S16x8_0_0 : ∀ a, (![0, 0] : Fin 2 → Nat) a + S16x8.size a ≤ S16x8.size a
  h_S16x8 : 0 < S16x8.numel
  shapeCasts_S16x8_S16x8 : S16x8.ShapeCasts S16x8
  inb_S4x8_S4x8_0_0 : ∀ a, (![0, 0] : Fin 2 → Nat) a + S4x8.size a ≤ S4x8.size a
  h_S4x8 : 0 < S4x8.numel
  shapeCasts_S4x8_S4x8 : S4x8.ShapeCasts S4x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S20000x8 : S1x8.Broadcasts S20000x8
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S20000x1 : S1x1.Broadcasts S20000x1
  inb_S20000x1_S20000x1_0_0 : ∀ a, (![0, 0] : Fin 2 → Nat) a + S20000x1.size a ≤ S20000x1.size a
  h_S20000x1 : 0 < S20000x1.numel
  gather_S100000x16_S1600000x1_S1600000x16_1_0_n_n_0_1_116_wf : GatherDims.WF S100000x16 S1600000x1 S1600000x16 [1] [0] [] [0] [] 1 ![1, 16]
  dot_S20000x16_S16x8_S20000x8_1_0_0_1_n_n_wf : DotDims.WF S20000x16 S16x8 S20000x8 [1] [0] [0] [1] [] []
  dot_S20000x4_S4x8_S20000x8_1_0_0_1_n_n_wf : DotDims.WF S20000x4 S4x8 S20000x8 [1] [0] [0] [1] [] []
  dot_S20000x8_S8x1_S20000x1_1_0_0_1_n_n_wf : DotDims.WF S20000x8 S8x1 S20000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x16.size a ≤ S1600000x16.size a
  hwx0_0 : ∀ i : grid0.Coords, EltTy.bits .bf16 = 32 ∨ (Rect.block (s := S1600000x16) S20000x16.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x4.size a ≤ S1600000x4.size a
  hwx0_1 : ∀ i : grid0.Coords, EltTy.bits .bf16 = 32 ∨ (Rect.block (s := S1600000x4) S20000x4.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x8.size a ≤ S16x8.size a
  hwx0_2 : ∀ i : grid0.Coords, EltTy.bits .bf16 = 32 ∨ (Rect.block (s := S16x8) S16x8.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x8.size a ≤ S4x8.size a
  hwx0_3 : ∀ i : grid0.Coords, EltTy.bits .bf16 = 32 ∨ (Rect.block (s := S4x8) S4x8.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S8x1.size a
  hwx0_5 : ∀ i : grid0.Coords, EltTy.bits .bf16 = 32 ∨ (Rect.block (s := S8x1) S8x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S20000x1.size a ≤ S1600000x1.size a
  hwx0_7 : ∀ i : grid0.Coords, EltTy.bits .f32 = 32 ∨ (Rect.block (s := S1600000x1) S20000x1.size (cc0_transform_7 i) (hinb0_7 i)).WholeWords (EltTy.packing .f32)

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def dot_S20000x16_S16x8_S20000x8_1_0_0_1_n_n : DotDims S20000x16 S16x8 S20000x8 where
  lhsContracting := [1]
  rhsContracting := [0]
  lhsNonContracting := [0]
  rhsNonContracting := [1]
  lhsBatch := []
  rhsBatch := []
  wf := dot_S20000x16_S16x8_S20000x8_1_0_0_1_n_n_wf
def dot_S20000x4_S4x8_S20000x8_1_0_0_1_n_n : DotDims S20000x4 S4x8 S20000x8 where
  lhsContracting := [1]
  rhsContracting := [0]
  lhsNonContracting := [0]
  rhsNonContracting := [1]
  lhsBatch := []
  rhsBatch := []
  wf := dot_S20000x4_S4x8_S20000x8_1_0_0_1_n_n_wf
def dot_S20000x8_S8x1_S20000x1_1_0_0_1_n_n : DotDims S20000x8 S8x1 S20000x1 where
  lhsContracting := [1]
  rhsContracting := [0]
  lhsNonContracting := [0]
  rhsNonContracting := [1]
  lhsBatch := []
  rhsBatch := []
  wf := dot_S20000x8_S8x1_S20000x1_1_0_0_1_n_n_wf

abbrev win0_0 : Pipeline.Window sig grid0 :=
  Pipeline.Window.ofSpec (Memref.whole main_v7) S20000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S20000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S16x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S4x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S8x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S20000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S1600000x4 : Shape := ⟨2, ![1600000, 4]⟩
abbrev S36x8 : Shape := ⟨2, ![36, 8]⟩
abbrev S8 : Shape := ⟨1, ![8]⟩
abbrev S8x1 : Shape := ⟨2, ![8, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S1600000x36 : Shape := ⟨2, ![1600000, 36]⟩
abbrev S1600000x8 : Shape := ⟨2, ![1600000, 8]⟩
abbrev S1x8 : Shape := ⟨2, ![1, 8]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S1600000x4, .f32⟩
  | .hbm, ⟨3, _⟩ => ⟨S36x8, .f32⟩
  | .hbm, ⟨4, _⟩ => ⟨S8, .f32⟩
  | .hbm, ⟨5, _⟩ => ⟨S8x1, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x16, .f32⟩
  | .hbm, ⟨18, _⟩ => ⟨S1600000x36, .f32⟩
  | .hbm, ⟨19, _⟩ => ⟨S1600000x8, .f32⟩
  | .hbm, ⟨20, _⟩ => ⟨S1x8, .f32⟩
  | .hbm, ⟨21, _⟩ => ⟨S1600000x8, .f32⟩
  | .hbm, ⟨22, _⟩ => ⟨S1600000x8, .f32⟩
  | .hbm, ⟨23, _⟩ => ⟨S1600000x8, .f32⟩
  | .hbm, ⟨24, _⟩ => ⟨S1600000x1, .f32⟩
  | .hbm, ⟨25, _⟩ => ⟨S1x1, .f32⟩
  | .hbm, ⟨26, _⟩ => ⟨S1600000x1, .f32⟩
  | .hbm, ⟨27, _⟩ => ⟨S1600000x1, .f32⟩
  | .hbm, ⟨28, _⟩ => ⟨S1600000x1, .f32⟩
  | .hbm, ⟨29, _⟩ => ⟨S1600000x1, .f32⟩
  | .hbm, ⟨30, _⟩ => ⟨S_, .f32⟩
  | .hbm, ⟨31, _⟩ => ⟨S1600000x1, .f32⟩
  | .hbm, ⟨32, _⟩ => ⟨S1600000x1, .f32⟩
  | .hbm, ⟨33, _⟩ => ⟨S_, .f32⟩
  | .hbm, ⟨34, _⟩ => ⟨S1600000x1, .f32⟩
  | .hbm, ⟨35, _⟩ => ⟨S1600000x1, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x16_S1600000x16_S1600000x4_S1600000x36_d1 : Shape.Concatenates [S1600000x16, S1600000x16, S1600000x4] S1600000x36 1
  bcast_S8_S1x8_1 : S8.BroadcastsInDim S1x8 (![1] : Fin 1 → Fin S1x8.rank)
  bcast_S1x8_S1600000x8_0_1 : S1x8.BroadcastsInDim S1600000x8 (![0, 1] : Fin 2 → Fin S1600000x8.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  gather_S100000x16_S1600000x1_S1600000x16_1_0_n_n_0_1_116_wf : GatherDims.WF S100000x16 S1600000x1 S1600000x16 [1] [0] [] [0] [] 1 ![1, 16]
  dot_S1600000x36_S36x8_S1600000x8_1_0_0_1_n_n_wf : DotDims.WF S1600000x36 S36x8 S1600000x8 [1] [0] [0] [1] [] []
  dot_S1600000x8_S8x1_S1600000x1_1_0_0_1_n_n_wf : DotDims.WF S1600000x8 S8x1 S1600000x1 [1] [0] [0] [1] [] []

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def dot_S1600000x36_S36x8_S1600000x8_1_0_0_1_n_n : DotDims S1600000x36 S36x8 S1600000x8 where
  lhsContracting := [1]
  rhsContracting := [0]
  lhsNonContracting := [0]
  rhsNonContracting := [1]
  lhsBatch := []
  rhsBatch := []
  wf := dot_S1600000x36_S36x8_S1600000x8_1_0_0_1_n_n_wf
def dot_S1600000x8_S8x1_S1600000x1_1_0_0_1_n_n : DotDims S1600000x8 S8x1 S1600000x1 where
  lhsContracting := [1]
  rhsContracting := [0]
  lhsNonContracting := [0]
  rhsNonContracting := [1]
  lhsBatch := []
  rhsBatch := []
  wf := dot_S1600000x8_S8x1_S1600000x1_1_0_0_1_n_n_wf

class Facts : Prop extends Facts₀ where

variable [Facts]
-- ==== Proof.RowMath.lean ====
/-
  The algebra of one edge's hidden layer, on the extended reals.
  The reference multiplies the 36-vector [s, s, a] (a gathered row s of length 16 twice, then the edge's 4
  attributes a) with the 36 x 8 weight matrix; the kernel multiplies s with the sum of the matrix's first two
  16-row bands and a with its last 4 rows, and adds the two products. For real s and real weights these agree:
  a sum over 36 positions splits into its three bands, and s j * (u + v) = s j * u + s j * v on the reals.
-/
import Idealize.ShloMosaic.PureOps.Ideal.Laws

open scoped BigOperators

namespace Cert.RowMath

/-- The 36-vector [s, s, a]. -/
def cat (s : Fin 16 → EReal) (a : Fin 4 → EReal) (i : Fin 36) : EReal :=
  if h : i.val < 16 then s ⟨i.val, h⟩
  else if h' : i.val < 32 then s ⟨i.val - 16, by omega⟩
  else a ⟨i.val - 32, by omega⟩

theorem cat_lo (s : Fin 16 → EReal) (a : Fin 4 → EReal) (j : Fin 16) :
    cat s a ⟨j.val, by omega⟩ = s j := by
  unfold cat; rw [dif_pos j.isLt]

theorem cat_mid (s : Fin 16 → EReal) (a : Fin 4 → EReal) (j : Fin 16) :
    cat s a ⟨16 + j.val, by omega⟩ = s j := by
  unfold cat
  rw [dif_neg (show ¬ (16 + j.val < 16) by omega), dif_pos (show 16 + j.val < 32 by omega)]
  exact congrArg s (Fin.ext (by show 16 + j.val - 16 = j.val; omega))

theorem cat_hi (s : Fin 16 → EReal) (a : Fin 4 → EReal) (j : Fin 4) :
    cat s a ⟨32 + j.val, by omega⟩ = a j := by
  unfold cat
  rw [dif_neg (show ¬ (32 + j.val < 16) by omega), dif_neg (show ¬ (32 + j.val < 32) by omega)]
  exact congrArg a (Fin.ext (by show 32 + j.val - 32 = j.val; omega))

/-- A sum over 36 positions is the sum over its bands 0..15, 16..31 and 32..35. -/
theorem sum36_split (f : Fin 36 → EReal) :
    ∑ i : Fin 36, f i
      = ((∑ j : Fin 16, f ⟨j.val, by omega⟩) + ∑ j : Fin 16, f ⟨16 + j.val, by omega⟩)
        + ∑ j : Fin 4, f ⟨32 + j.val, by omega⟩ := by
  have h1 := Fin.sum_univ_add (a := 32) (b := 4) f
  have h2 := Fin.sum_univ_add (a := 16) (b := 16) (fun i : Fin 32 => f (Fin.castAdd 4 i))
  exact h1.trans (congrArg (· + ∑ j : Fin 4, f ⟨32 + j.val, by omega⟩) h2)

/-- The folded weights give the same hidden pre-activation as the concatenated row, when the gathered row and
    the weights are real numbers. -/
theorem folded_eq_cat (s : Fin 16 → EReal) (a : Fin 4 → EReal) (w : Fin 36 → EReal)
    (hs : ∀ j, ∃ r : ℝ, s j = (r : EReal)) (hw : ∀ i, ∃ r : ℝ, w i = (r : EReal)) :
    (∑ j : Fin 16, s j * (w ⟨j.val, by omega⟩ + w ⟨16 + j.val, by omega⟩))
        + ∑ j : Fin 4, a j * w ⟨32 + j.val, by omega⟩
      = ∑ i : Fin 36, cat s a i * w i := by
  rw [sum36_split]
  simp only [cat_lo, cat_mid, cat_hi]
  rw [← Finset.sum_add_distrib]
  congr 1
  refine Finset.sum_congr rfl fun j _ => ?_
  obtain ⟨x, hx⟩ := hs j
  obtain ⟨y, hy⟩ := hw ⟨j.val, by omega⟩
  obtain ⟨z, hz⟩ := hw ⟨16 + j.val, by omega⟩
  rw [hx, hy, hz]
  norm_cast
  ring

open Idealize.ShloMosaic in
/-- The value the kernel gives one edge from its gathered row s, its attributes a and the staged weights: the
    two-layer perceptron with the first layer folded (wc = the sum of the weight matrix's first two bands). -/
noncomputable def edgeOut (s : Fin 16 → EReal) (a : Fin 4 → EReal) (wc : Fin 16 → Fin 8 → EReal) (wa : Fin 4 → Fin 8 → EReal)
    (b1 : Fin 8 → EReal) (w2 : Fin 8 → EReal) (b2 : EReal) : EReal :=
  Ideal.logistic ((∑ k : Fin 8, Ideal.tanh (((∑ j : Fin 16, s j * wc j k) + ∑ j : Fin 4, a j * wa j k) + b1 k) * w2 k) + b2)

open Idealize.ShloMosaic in
/-- The value the reference gives one edge from its concatenated row X and the 36 x 8 weights. -/
noncomputable def refOut (X : Fin 36 → EReal) (w : Fin 36 → Fin 8 → EReal) (b1 : Fin 8 → EReal) (w2 : Fin 8 → EReal) (b2 : EReal) : EReal :=
  Ideal.logistic ((∑ k : Fin 8, Ideal.tanh ((∑ i : Fin 36, X i * w i k) + b1 k) * w2 k) + b2)

/-- The two agree: same hidden pre-activations (the folded sum is the concatenated one), then the same functions. -/
theorem edgeOut_eq_refOut (s : Fin 16 → EReal) (a : Fin 4 → EReal) (w : Fin 36 → Fin 8 → EReal)
    (b1 : Fin 8 → EReal) (w2 : Fin 8 → EReal) (b2 : EReal)
    (hs : ∀ j, ∃ r : ℝ, s j = (r : EReal)) (hw : ∀ i k, ∃ r : ℝ, w i k = (r : EReal)) :
    edgeOut s a (fun j k => w ⟨j.val, by omega⟩ k + w ⟨16 + j.val, by omega⟩ k) (fun j k => w ⟨32 + j.val, by omega⟩ k) b1 w2 b2
      = refOut (cat s a) w b1 w2 b2 := by
  unfold edgeOut refOut
  congr 2
  refine Finset.sum_congr rfl fun k _ => ?_
  congr 3
  exact folded_eq_cat s a (fun i => w i k) hs (fun i => hw i k)

/-- An extended real of finite absolute value is a real number. -/
theorem real_of_abs_lt_top {x : EReal} (h : max x (-x) < ⊤) : ∃ r : ℝ, x = (r : EReal) := by
  induction x using EReal.rec with
  | bot => simp at h
  | coe r => exact ⟨r, rfl⟩
  | top => simp at h

end Cert.RowMath
-- ==== Proof.PreRead.lean ====
/-
  The precondition, read back.
  It says: every entry of the embedding table, of the edge attributes, of the weights and of the biases is finite,
  and every source-node index (row 0 of the edge index array) lies in 0 .. 99999. Used here: the table's and the
  first layer's weights' entries are real numbers, and each source index is at least 0 and below 100000 as a
  signed word.
-/
import proofs.«422278_j9302899163220_2_alg».proof.Defs
import proofs.«422278_j9302899163220_2_alg».proof.Proof.RowMath
import Idealize.ShloMosaic.Lib.ReduceAll
import Idealize.ShloMosaic.Lib.ValueIdx

noncomputable section

namespace Cert.PreRead

open Cert.Pre_finite_inputs Idealize.ShloMosaic Idealize.ShloMosaic.ValueIdx

variable [Cert.Pre_finite_inputs.Facts]
open Cert.Pre_finite_inputs.Facts

instance : Subsingleton S_.Idx := ⟨fun a b => funext fun d => d.elim0⟩

theorem and1 : ∀ (a b : BitVec 1), IntOp.andi a b = 1#1 ↔ a = 1#1 ∧ b = 1#1 := by decide

/-- A value whose absolute value compares below the pattern of +infinity is a real number. -/
theorem real_of_lt_inf (x : Ideal .f32)
    (h : FloatOps.cmpf (F := Ideal) .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  exact Cert.RowMath.real_of_abs_lt_top hlt

/-- The source-node indices: row 0 of the edge index array, as a vector of 1600000 words. -/
def srcIdx (a1 : IVec S2x1600000 32) : IVec S1600000 32 :=
  shapeCast S1600000 (extractStridedSlice S1x1600000 ![0, 0] a1 slices_S2x1600000_S1x1600000_0_0) shapeCasts_S1x1600000_S1600000

/-- What the precondition gives: the table and the first layer's weights are real, the source indices in range. -/
theorem decode (a0 : FVec Ideal S100000x16 .f32) (a1 : IVec S2x1600000 32) (a2 : FVec Ideal S1600000x4 .f32)
    (a3 : FVec Ideal S36x8 .f32) (a4 : FVec Ideal S8 .f32) (a5 : FVec Ideal S8x1 .f32) (a6 : FVec Ideal S1 .f32)
    (h : fn (F := Ideal) a0 a1 a2 a3 a4 a5 a6 = fun _ => 1#1) :
    (∀ i, ∃ r : ℝ, (a0 i : EReal) = (r : EReal)) ∧ (∀ i, ∃ r : ℝ, (a3 i : EReal) = (r : EReal))
    ∧ (∀ i, IntOp.cmpi .sge (srcIdx a1 i) 0#32 = 1#1) ∧ (∀ i, IntOp.cmpi .slt (srcIdx a1 i) 100000#32 = 1#1) := by
  have e := congrFun h ix0
  unfold fn fn_part1 fn_part2 at e
  dsimp only at e
  simp only [andi, and1] at e
  obtain ⟨⟨⟨⟨⟨⟨⟨h3, h7⟩, h12⟩, h17⟩, h22⟩, h27⟩, h33⟩, h39⟩ := e
  refine ⟨fun i => real_of_lt_inf (a0 i) (Host.reduce_andi_all _ _ _ _ _ h3 i),
    fun i => real_of_lt_inf (a3 i) (Host.reduce_andi_all _ _ _ _ _ h12 i),
    fun i => Host.reduce_andi_all _ _ _ _ _ h33 i, fun i => Host.reduce_andi_all _ _ _ _ _ h39 i⟩

end Cert.PreRead

end
-- ==== Proof.KernelBlock.lean ====
/-
  One block of 20000 edges through the kernel body, read at one edge.
  The body multiplies the block of gathered rows (20000 x 16) with the folded weights (16 x 8), the block of edge
  attributes (20000 x 4) with the attribute weights (4 x 8), adds the two products and the bias row, applies tanh,
  multiplies with the output weights (8 x 1), adds the output bias and applies the logistic function. At edge p of
  the block this is
    logistic( sum_k tanh( (sum_j s(p,j) wc(j,k) + sum_j a(p,j) wa(j,k)) + b1(0,k) ) w2(k,0) + b2(0,0) ),
  each matrix product into a zero accumulator being the plain sum over its one contracted axis.
-/
import proofs.«422278_j9302899163220_2_alg».proof.Proof.Gen.KernelIdeal.Skeleton
import proofs.«422278_j9302899163220_2_alg».proof.Proof.RowMath
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeBlock

open Cert.KernelIdeal Cert.KernelIdeal.Gen Cert.RowMath Idealize.ShloMosaic Idealize.ShloMosaic.ValueIdx

/-! ## The product of the gathered rows with the folded weights: operand indices, axis by axis -/

theorem lhs_src_0 (i : S20000x8.Idx) (q : dot_S20000x16_S16x8_S20000x8_1_0_0_1_n_n.contr.Idx) :
    (dot_S20000x16_S16x8_S20000x8_1_0_0_1_n_n.lhsIdx i q 0).val = (i 0).val := by
  unfold DotDims.lhsIdx
  rw [dif_neg (show ¬(0 : Fin S20000x16.rank) ∈ dot_S20000x16_S16x8_S20000x8_1_0_0_1_n_n.lhsBatch by decide), dif_pos (show (0 : Fin S20000x16.rank) ∈ dot_S20000x16_S16x8_S20000x8_1_0_0_1_n_n.lhsNonContracting by decide)]
  rfl
theorem lhs_src_1 (i : S20000x8.Idx) (q : dot_S20000x16_S16x8_S20000x8_1_0_0_1_n_n.contr.Idx) :
    (dot_S20000x16_S16x8_S20000x8_1_0_0_1_n_n.lhsIdx i q 1).val = (q ⟨0, by decide⟩).val :=
  dot_S20000x16_S16x8_S20000x8_1_0_0_1_n_n.lhsIdx_val_of_single rfl i q
theorem rhs_src_0 (i : S20000x8.Idx) (q : dot_S20000x16_S16x8_S20000x8_1_0_0_1_n_n.contr.Idx) :
    (dot_S20000x16_S16x8_S20000x8_1_0_0_1_n_n.rhsIdx i q 0).val = (q ⟨0, by decide⟩).val :=
  dot_S20000x16_S16x8_S20000x8_1_0_0_1_n_n.rhsIdx_val_of_single rfl i q
theorem rhs_src_1 (i : S20000x8.Idx) (q : dot_S20000x16_S16x8_S20000x8_1_0_0_1_n_n.contr.Idx) :
    (dot_S20000x16_S16x8_S20000x8_1_0_0_1_n_n.rhsIdx i q 1).val = (i 1).val := by
  unfold DotDims.rhsIdx
  rw [dif_neg (show ¬(1 : Fin S16x8.rank) ∈ dot_S20000x16_S16x8_S20000x8_1_0_0_1_n_n.rhsBatch by decide), dif_pos (show (1 : Fin S16x8.rank) ∈ dot_S20000x16_S16x8_S20000x8_1_0_0_1_n_n.rhsNonContracting by decide)]
  rfl

/-- Entry (p, k) of the first product: the sum over the 16 columns of the gathered row. -/
theorem mm_src_apply (x : FVec Ideal S20000x16 .bf16) (w : FVec Ideal S16x8 .bf16) (p : Fin 20000) (k : Fin 8) :
    matmul dot_S20000x16_S16x8_S20000x8_1_0_0_1_n_n none x w (constant S20000x8 .f32 0x00000000#32) (ix2 p k)
      = ∑ j : Fin 16, x (ix2 p j) * w (ix2 j k) := by
  simp only [matmul]
  rw [Ideal.matmul_constant_zero_apply, ← Equiv.sum_comp (contrEquiv1 dot_S20000x16_S16x8_S20000x8_1_0_0_1_n_n 16 rfl rfl).symm]
  refine Finset.sum_congr rfl fun j _ => ?_
  have hk := contrEquiv1_symm_val dot_S20000x16_S16x8_S20000x8_1_0_0_1_n_n 16 rfl rfl j
  have el : dot_S20000x16_S16x8_S20000x8_1_0_0_1_n_n.lhsIdx (ix2 p k) ((contrEquiv1 dot_S20000x16_S16x8_S20000x8_1_0_0_1_n_n 16 rfl rfl).symm j) = ix2 p j := funext fun a => Fin.ext (by
    match a with
    | ⟨0, _⟩ => exact lhs_src_0 _ _
    | ⟨1, _⟩ => exact (lhs_src_1 _ _).trans hk)
  have er : dot_S20000x16_S16x8_S20000x8_1_0_0_1_n_n.rhsIdx (ix2 p k) ((contrEquiv1 dot_S20000x16_S16x8_S20000x8_1_0_0_1_n_n 16 rfl rfl).symm j) = ix2 j k := funext fun a => Fin.ext (by
    match a with
    | ⟨0, _⟩ => exact (rhs_src_0 _ _).trans hk
    | ⟨1, _⟩ => exact rhs_src_1 _ _)
  rw [el, er]

/-! ## The product of the edge attributes with their weights -/

theorem lhs_attr_0 (i : S20000x8.Idx) (q : dot_S20000x4_S4x8_S20000x8_1_0_0_1_n_n.contr.Idx) :
    (dot_S20000x4_S4x8_S20000x8_1_0_0_1_n_n.lhsIdx i q 0).val = (i 0).val := by
  unfold DotDims.lhsIdx
  rw [dif_neg (show ¬(0 : Fin S20000x4.rank) ∈ dot_S20000x4_S4x8_S20000x8_1_0_0_1_n_n.lhsBatch by decide), dif_pos (show (0 : Fin S20000x4.rank) ∈ dot_S20000x4_S4x8_S20000x8_1_0_0_1_n_n.lhsNonContracting by decide)]
  rfl
theorem lhs_attr_1 (i : S20000x8.Idx) (q : dot_S20000x4_S4x8_S20000x8_1_0_0_1_n_n.contr.Idx) :
    (dot_S20000x4_S4x8_S20000x8_1_0_0_1_n_n.lhsIdx i q 1).val = (q ⟨0, by decide⟩).val :=
  dot_S20000x4_S4x8_S20000x8_1_0_0_1_n_n.lhsIdx_val_of_single rfl i q
theorem rhs_attr_0 (i : S20000x8.Idx) (q : dot_S20000x4_S4x8_S20000x8_1_0_0_1_n_n.contr.Idx) :
    (dot_S20000x4_S4x8_S20000x8_1_0_0_1_n_n.rhsIdx i q 0).val = (q ⟨0, by decide⟩).val :=
  dot_S20000x4_S4x8_S20000x8_1_0_0_1_n_n.rhsIdx_val_of_single rfl i q
theorem rhs_attr_1 (i : S20000x8.Idx) (q : dot_S20000x4_S4x8_S20000x8_1_0_0_1_n_n.contr.Idx) :
    (dot_S20000x4_S4x8_S20000x8_1_0_0_1_n_n.rhsIdx i q 1).val = (i 1).val := by
  unfold DotDims.rhsIdx
  rw [dif_neg (show ¬(1 : Fin S4x8.rank) ∈ dot_S20000x4_S4x8_S20000x8_1_0_0_1_n_n.rhsBatch by decide), dif_pos (show (1 : Fin S4x8.rank) ∈ dot_S20000x4_S4x8_S20000x8_1_0_0_1_n_n.rhsNonContracting by decide)]
  rfl

/-- Entry (p, k) of the second product: the sum over the 4 attributes of the edge. -/
theorem mm_attr_apply (x : FVec Ideal S20000x4 .bf16) (w : FVec Ideal S4x8 .bf16) (p : Fin 20000) (k : Fin 8) :
    matmul dot_S20000x4_S4x8_S20000x8_1_0_0_1_n_n none x w (constant S20000x8 .f32 0x00000000#32) (ix2 p k)
      = ∑ j : Fin 4, x (ix2 p j) * w (ix2 j k) := by
  simp only [matmul]
  rw [Ideal.matmul_constant_zero_apply, ← Equiv.sum_comp (contrEquiv1 dot_S20000x4_S4x8_S20000x8_1_0_0_1_n_n 4 rfl rfl).symm]
  refine Finset.sum_congr rfl fun j _ => ?_
  have hk := contrEquiv1_symm_val dot_S20000x4_S4x8_S20000x8_1_0_0_1_n_n 4 rfl rfl j
  have el : dot_S20000x4_S4x8_S20000x8_1_0_0_1_n_n.lhsIdx (ix2 p k) ((contrEquiv1 dot_S20000x4_S4x8_S20000x8_1_0_0_1_n_n 4 rfl rfl).symm j) = ix2 p j := funext fun a => Fin.ext (by
    match a with
    | ⟨0, _⟩ => exact lhs_attr_0 _ _
    | ⟨1, _⟩ => exact (lhs_attr_1 _ _).trans hk)
  have er : dot_S20000x4_S4x8_S20000x8_1_0_0_1_n_n.rhsIdx (ix2 p k) ((contrEquiv1 dot_S20000x4_S4x8_S20000x8_1_0_0_1_n_n 4 rfl rfl).symm j) = ix2 j k := funext fun a => Fin.ext (by
    match a with
    | ⟨0, _⟩ => exact (rhs_attr_0 _ _).trans hk
    | ⟨1, _⟩ => exact rhs_attr_1 _ _)
  rw [el, er]

/-! ## The product of the hidden layer with the output weights -/

theorem lhs_out_0 (i : S20000x1.Idx) (q : dot_S20000x8_S8x1_S20000x1_1_0_0_1_n_n.contr.Idx) :
    (dot_S20000x8_S8x1_S20000x1_1_0_0_1_n_n.lhsIdx i q 0).val = (i 0).val := by
  unfold DotDims.lhsIdx
  rw [dif_neg (show ¬(0 : Fin S20000x8.rank) ∈ dot_S20000x8_S8x1_S20000x1_1_0_0_1_n_n.lhsBatch by decide), dif_pos (show (0 : Fin S20000x8.rank) ∈ dot_S20000x8_S8x1_S20000x1_1_0_0_1_n_n.lhsNonContracting by decide)]
  rfl
theorem lhs_out_1 (i : S20000x1.Idx) (q : dot_S20000x8_S8x1_S20000x1_1_0_0_1_n_n.contr.Idx) :
    (dot_S20000x8_S8x1_S20000x1_1_0_0_1_n_n.lhsIdx i q 1).val = (q ⟨0, by decide⟩).val :=
  dot_S20000x8_S8x1_S20000x1_1_0_0_1_n_n.lhsIdx_val_of_single rfl i q
theorem rhs_out_0 (i : S20000x1.Idx) (q : dot_S20000x8_S8x1_S20000x1_1_0_0_1_n_n.contr.Idx) :
    (dot_S20000x8_S8x1_S20000x1_1_0_0_1_n_n.rhsIdx i q 0).val = (q ⟨0, by decide⟩).val :=
  dot_S20000x8_S8x1_S20000x1_1_0_0_1_n_n.rhsIdx_val_of_single rfl i q
theorem rhs_out_1 (i : S20000x1.Idx) (q : dot_S20000x8_S8x1_S20000x1_1_0_0_1_n_n.contr.Idx) :
    (dot_S20000x8_S8x1_S20000x1_1_0_0_1_n_n.rhsIdx i q 1).val = (i 1).val := by
  unfold DotDims.rhsIdx
  rw [dif_neg (show ¬(1 : Fin S8x1.rank) ∈ dot_S20000x8_S8x1_S20000x1_1_0_0_1_n_n.rhsBatch by decide), dif_pos (show (1 : Fin S8x1.rank) ∈ dot_S20000x8_S8x1_S20000x1_1_0_0_1_n_n.rhsNonContracting by decide)]
  rfl

/-- Entry (p, 0) of the third product: the sum over the 8 hidden units. -/
theorem mm_out_apply (x : FVec Ideal S20000x8 .bf16) (w : FVec Ideal S8x1 .bf16) (p : Fin 20000) (z : Fin 1) :
    matmul dot_S20000x8_S8x1_S20000x1_1_0_0_1_n_n none x w (constant S20000x1 .f32 0x00000000#32) (ix2 p z)
      = ∑ k : Fin 8, x (ix2 p k) * w (ix2 k z) := by
  simp only [matmul]
  rw [Ideal.matmul_constant_zero_apply, ← Equiv.sum_comp (contrEquiv1 dot_S20000x8_S8x1_S20000x1_1_0_0_1_n_n 8 rfl rfl).symm]
  refine Finset.sum_congr rfl fun j _ => ?_
  have hk := contrEquiv1_symm_val dot_S20000x8_S8x1_S20000x1_1_0_0_1_n_n 8 rfl rfl j
  have el : dot_S20000x8_S8x1_S20000x1_1_0_0_1_n_n.lhsIdx (ix2 p z) ((contrEquiv1 dot_S20000x8_S8x1_S20000x1_1_0_0_1_n_n 8 rfl rfl).symm j) = ix2 p j := funext fun a => Fin.ext (by
    match a with
    | ⟨0, _⟩ => exact lhs_out_0 _ _
    | ⟨1, _⟩ => exact (lhs_out_1 _ _).trans hk)
  have er : dot_S20000x8_S8x1_S20000x1_1_0_0_1_n_n.rhsIdx (ix2 p z) ((contrEquiv1 dot_S20000x8_S8x1_S20000x1_1_0_0_1_n_n 8 rfl rfl).symm j) = ix2 j z := funext fun a => Fin.ext (by
    match a with
    | ⟨0, _⟩ => exact (rhs_out_0 _ _).trans hk
    | ⟨1, _⟩ => exact rhs_out_1 _ _)
  rw [el, er]

/-! ## The body's result at one edge -/

/-- The body's stored value at edge p of the block. -/
theorem pay_apply (x0 : Vec Ideal S20000x16 .bf16) (x1 : Vec Ideal S20000x4 .bf16) (x2 : Vec Ideal S16x8 .bf16)
    (x3 : Vec Ideal S4x8 .bf16) (x4 : Vec Ideal S1x8 .f32) (x5 : Vec Ideal S8x1 .bf16) (x6 : Vec Ideal S1x1 .f32)
    (p : Fin 20000) (z : Fin 1) :
    k0_pay1 (F := Ideal) x0 x1 x2 x3 x4 x5 x6 (ix2 p z)
      = edgeOut (fun j => x0 (ix2 p j)) (fun j => x1 (ix2 p j)) (fun j k => x2 (ix2 j k)) (fun j k => x3 (ix2 j k))
          (fun k => x4 (ix2 (0 : Fin 1) k)) (fun k => x5 (ix2 k (0 : Fin 1))) (x6 (ix2 (0 : Fin 1) (0 : Fin 1))) := by
  have hz : z = (0 : Fin 1) := Subsingleton.elim _ _
  subst hz
  unfold k0_pay1 edgeOut
  simp only [shapeCast_self]
  show Ideal.logistic (matmul (F := Ideal) dot_S20000x8_S8x1_S20000x1_1_0_0_1_n_n none _ x5 (constant S20000x1 .f32 0x00000000#32) (ix2 p (0 : Fin 1))
      + broadcastTo S20000x1 x6 broadcasts_S1x1_S20000x1 (ix2 p (0 : Fin 1))) = _
  rw [mm_out_apply, broadcastTo_1b_ab_apply]
  congr 2
  refine Finset.sum_congr rfl fun k _ => ?_
  congr 1
  show Ideal.tanh ((matmul (F := Ideal) dot_S20000x16_S16x8_S20000x8_1_0_0_1_n_n none x0 x2 (constant S20000x8 .f32 0x00000000#32) (ix2 p k)
      + matmul (F := Ideal) dot_S20000x4_S4x8_S20000x8_1_0_0_1_n_n none x1 x3 (constant S20000x8 .f32 0x00000000#32) (ix2 p k))
      + broadcastTo S20000x8 x4 broadcasts_S1x8_S20000x8 (ix2 p k)) = _
  rw [mm_src_apply, mm_attr_apply, broadcastTo_1b_ab_apply]

end Cert.KernelIdeal.EdgeBlock

end
-- ==== Proof.KernelArray.lean ====
/-
  From blocks to the whole result array.
  Grid point t stages rows 20000 t .. 20000 t + 19999 of the gathered rows and of the edge attributes, and the five
  small weight and bias arrays whole; it writes back rows 20000 t .. 20000 t + 19999 of the result. So what point t
  writes back is block t of ONE function of the seven staged arrays: edge e gets the two-layer perceptron's value of
  row e of the gathered rows and row e of the attributes. The 80 blocks tile the 1600000 rows, so the result array
  ends holding that function.
-/
import proofs.«422278_j9302899163220_2_alg».proof.Proof.Gen.KernelIdeal.Value
import proofs.«422278_j9302899163220_2_alg».proof.Proof.KernelBlock

noncomputable section

namespace Cert.KernelIdeal.EdgeArray

open Cert.KernelIdeal Cert.KernelIdeal.Gen Cert.KernelIdeal.EdgeBlock Cert.RowMath
open Idealize.ShloMosaic Idealize.ShloMosaic.ValueIdx Idealize.ShloMosaic.TcCoe Idealize.SL.Sem
open Idealize.ShloMosaic.Pipeline (Dat)

/-- The result array as one function of the seven arrays the region stages: edge e's value from row e of the
    gathered rows S and row e of the attributes A. -/
def outArr (S : Vec Ideal S1600000x16 .bf16) (A : Vec Ideal S1600000x4 .bf16) (Wc : Vec Ideal S16x8 .bf16)
    (Wa : Vec Ideal S4x8 .bf16) (B1 : Vec Ideal S1x8 .f32) (W2 : Vec Ideal S8x1 .bf16) (B2 : Vec Ideal S1x1 .f32) :
    Vec Ideal S1600000x1 .f32 :=
  fun i => edgeOut (fun j => S (ix2 (⟨(i 0).val, idx2_lt0 i⟩ : Fin 1600000) j))
    (fun j => A (ix2 (⟨(i 0).val, idx2_lt0 i⟩ : Fin 1600000) j))
    (fun j k => Wc (ix2 j k)) (fun j k => Wa (ix2 j k)) (fun k => B1 (ix2 (0 : Fin 1) k))
    (fun k => W2 (ix2 k (0 : Fin 1))) (B2 (ix2 (0 : Fin 1) (0 : Fin 1)))

/-- The body's value at edge p of a block is the array function at edge e, when the block rows p of the two row
    windows are rows e of their arrays and the small windows hold their arrays. -/
theorem pay_eq_outArr (S : Vec Ideal S1600000x16 .bf16) (A : Vec Ideal S1600000x4 .bf16) (Wc : Vec Ideal S16x8 .bf16)
    (Wa : Vec Ideal S4x8 .bf16) (B1 : Vec Ideal S1x8 .f32) (W2 : Vec Ideal S8x1 .bf16) (B2 : Vec Ideal S1x1 .f32)
    (x0 : Vec Ideal S20000x16 .bf16) (x1 : Vec Ideal S20000x4 .bf16) (x2 : Vec Ideal S16x8 .bf16)
    (x3 : Vec Ideal S4x8 .bf16) (x4 : Vec Ideal S1x8 .f32) (x5 : Vec Ideal S8x1 .bf16) (x6 : Vec Ideal S1x1 .f32)
    (p : Fin 20000) (z : Fin 1) (e : Fin 1600000)
    (h0 : ∀ j : Fin 16, x0 (ix2 p j) = S (ix2 e j)) (h1 : ∀ j : Fin 4, x1 (ix2 p j) = A (ix2 e j))
    (h2 : ∀ (j : Fin 16) (k : Fin 8), x2 (ix2 j k) = Wc (ix2 j k))
    (h3 : ∀ (j : Fin 4) (k : Fin 8), x3 (ix2 j k) = Wa (ix2 j k))
    (h4 : ∀ k : Fin 8, x4 (ix2 (0 : Fin 1) k) = B1 (ix2 (0 : Fin 1) k))
    (h5 : ∀ k : Fin 8, x5 (ix2 k (0 : Fin 1)) = W2 (ix2 k (0 : Fin 1)))
    (h6 : x6 (ix2 (0 : Fin 1) (0 : Fin 1)) = B2 (ix2 (0 : Fin 1) (0 : Fin 1))) :
    k0_pay1 (F := Ideal) x0 x1 x2 x3 x4 x5 x6 (ix2 p z) = outArr S A Wc Wa B1 W2 B2 (ix2 e z) := by
  rw [pay_apply]
  unfold outArr
  simp only [h0, h1, h2, h3, h4, h5, h6]

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 80 points: the two row windows move with the result window along the
    rows, and the small windows stay at block (0, 0). -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 79 ∧ win0_7.index t (1 : Fin 2) = 0 :=
  (by decide +kernel : ∀ t : Fin grid0.N, _)

/-- Every one of the 80 row blocks is some point's. -/
theorem idx_onto : ∀ q : Fin 80, ∃ t : Fin cfg0.N, win0_7.index t = ![q.val, 0] :=
  (by decide +kernel : ∀ q : Fin 80, ∃ t : Fin grid0.N, win0_7.index t = ![q.val, 0])

set_option maxHeartbeats 2000000 in
/-- The body's value of point t's blocks of ANY seven arrays is block t of the array function of those arrays. -/
theorem block_out (A0 : Vec Ideal S1600000x16 .bf16) (A1 : Vec Ideal S1600000x4 .bf16) (A2 : Vec Ideal S16x8 .bf16)
    (A3 : Vec Ideal S4x8 .bf16) (A4 : Vec Ideal S1x8 .f32) (A5 : Vec Ideal S8x1 .bf16) (A6 : Vec Ideal S1x1 .f32)
    (t : Fin cfg0.N) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5)
        (((cfg0.win 6).blk t).view.read (Elt Ideal) A6)
      = ((cfg0.win 7).blk t).view.read (Elt Ideal) (outArr A0 A1 A2 A3 A4 A5 A6) := by
  obtain ⟨e00, e01, e10, e11, e20, e21, e30, e31, e40, e41, e50, e51, e60, e61, e70, e71⟩ := idx_facts t
  funext y
  obtain ⟨p, z, rfl⟩ : ∃ (p : Fin 20000) (z : Fin 1), y = ix2 p z := ⟨y 0, y 1, eq_ix2 y⟩
  rw [View.read_apply, cast_eq]
  have he : ((cfg0.win 7).blk t).view.emb (ix2 p z)
      = ix2 (⟨win0_7.index t (0 : Fin 2) * 20000 + p.val, by have := p.isLt; omega⟩ : Fin 1600000) z := by
    funext a; apply Fin.ext
    match a with
    | ⟨0, _⟩ => show win0_7.index t (0 : Fin 2) * 20000 + 1 * p.val = win0_7.index t (0 : Fin 2) * 20000 + p.val; omega
    | ⟨1, _⟩ => show win0_7.index t (1 : Fin 2) * 1 + 1 * z.val = z.val; omega
  rw [he]
  refine pay_eq_outArr A0 A1 A2 A3 A4 A5 A6 _ _ _ _ _ _ _ p z _ ?_ ?_ ?_ ?_ ?_ ?_ ?_
  · intro j
    rw [View.read_apply, cast_eq]
    refine congrArg _ (funext fun a => Fin.ext ?_)
    match a with
    | ⟨0, _⟩ => show win0_0.index t (0 : Fin 2) * 20000 + 1 * p.val = win0_7.index t (0 : Fin 2) * 20000 + p.val; omega
    | ⟨1, _⟩ => show win0_0.index t (1 : Fin 2) * 16 + 1 * j.val = j.val; omega
  · intro j
    rw [View.read_apply, cast_eq]
    refine congrArg _ (funext fun a => Fin.ext ?_)
    match a with
    | ⟨0, _⟩ => show win0_1.index t (0 : Fin 2) * 20000 + 1 * p.val = win0_7.index t (0 : Fin 2) * 20000 + p.val; omega
    | ⟨1, _⟩ => show win0_1.index t (1 : Fin 2) * 4 + 1 * j.val = j.val; omega
  · intro j k
    rw [View.read_apply, cast_eq]
    refine congrArg _ (funext fun a => Fin.ext ?_)
    match a with
    | ⟨0, _⟩ => show win0_2.index t (0 : Fin 2) * 16 + 1 * j.val = j.val; omega
    | ⟨1, _⟩ => show win0_2.index t (1 : Fin 2) * 8 + 1 * k.val = k.val; omega
  · intro j k
    rw [View.read_apply, cast_eq]
    refine congrArg _ (funext fun a => Fin.ext ?_)
    match a with
    | ⟨0, _⟩ => show win0_3.index t (0 : Fin 2) * 4 + 1 * j.val = j.val; omega
    | ⟨1, _⟩ => show win0_3.index t (1 : Fin 2) * 8 + 1 * k.val = k.val; omega
  · intro k
    rw [View.read_apply, cast_eq]
    refine congrArg _ (funext fun a => Fin.ext ?_)
    match a with
    | ⟨0, _⟩ => show win0_4.index t (0 : Fin 2) * 1 + 1 * 0 = 0; omega
    | ⟨1, _⟩ => show win0_4.index t (1 : Fin 2) * 8 + 1 * k.val = k.val; omega
  · intro k
    rw [View.read_apply, cast_eq]
    refine congrArg _ (funext fun a => Fin.ext ?_)
    match a with
    | ⟨0, _⟩ => show win0_5.index t (0 : Fin 2) * 8 + 1 * k.val = k.val; omega
    | ⟨1, _⟩ => show win0_5.index t (1 : Fin 2) * 1 + 1 * 0 = 0; omega
  · rw [View.read_apply, cast_eq]
    refine congrArg _ (funext fun a => Fin.ext ?_)
    match a with
    | ⟨0, _⟩ => show win0_6.index t (0 : Fin 2) * 1 + 1 * 0 = 0; omega
    | ⟨1, _⟩ => show win0_6.index t (1 : Fin 2) * 1 + 1 * 0 = 0; omega

/-- What point t writes back is block t of the array function of the staged arrays. -/
theorem flushed_eq (c : Dev nD) (t : Fin cfg0.N) :
    (dats m 0 c).flushed 7 t = ((cfg0.win 7).blk t).view.read (Elt Ideal)
      (outArr (V m c main_v7) (V m c main_v8) (V m c main_v9) (V m c main_v10) (V m c main_v12) (V m c main_v11) (V m c main_v13)) := by
  show (cfg0.win 7).cut (grid0.coords t) ((dats m 0 c).after 7 t) = _
  rw [after0_7]
  unfold out0_7
  rw [View.canon_unit_zero hz]
  simp only [View.ld_unit_zero (S := S20000x16) hz, View.ld_unit_zero (S := S20000x4) hz, View.ld_unit_zero (S := S16x8) hz,
    View.ld_unit_zero (S := S4x8) hz, View.ld_unit_zero (S := S1x8) hz, View.ld_unit_zero (S := S8x1) hz,
    View.ld_unit_zero (S := S1x1) hz]
  funext y
  obtain ⟨p, z, rfl⟩ : ∃ (p : Fin 20000) (z : Fin 1), y = ix2 p z := ⟨y 0, y 1, eq_ix2 y⟩
  show k0_pay1 (F := Ideal) (iblk m c 0 t) (iblk m c 1 t) (iblk m c 2 t) (iblk m c 3 t) (iblk m c 4 t) (iblk m c 5 t) (iblk m c 6 t) (ix2 p z) = _
  unfold iblk
  exact congrFun (block_out (V m c main_v7) (V m c main_v8) (V m c main_v9) (V m c main_v10) (V m c main_v12) (V m c main_v11) (V m c main_v13) t) (ix2 p z)

/-- An index of the result array is in point t's block iff each coordinate is in the block's range on its axis. -/
theorem mem_blk (t : Fin cfg0.N) (i : S1600000x1.Idx) :
    i ∈ ((cfg0.win 7).blk t).view.set ↔ ∀ a : Fin 2, win0_7.index t a * S20000x1.size a ≤ (i a).val ∧ (i a).val < win0_7.index t a * S20000x1.size a + S20000x1.size a := by
  show i ∈ ((View.whole main_v14).slice (win0_7.rect t)).set ↔ _
  rw [View.set_slice_whole, Rect.mem_set_unit]
  exact Iff.rfl

/-- Every edge is in some point's block: the point whose block index is the edge's row divided by 20000. -/
theorem covered (i : S1600000x1.Idx) :
    ∃ t : Fin cfg0.N, (cfg0.win 7).flush t = true ∧ i ∈ ((cfg0.win 7).blk t).view.set := by
  have hi0 : (i 0).val < 1600000 := (i 0).isLt
  have hi1 : (i 1).val < 1 := (i 1).isLt
  obtain ⟨t, ht⟩ := idx_onto ⟨(i 0).val / 20000, by omega⟩
  have q0 : win0_7.index t (0 : Fin 2) = (i 0).val / 20000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 20000 ≤ (i 0).val ∧ (i 0).val < win0_7.index t (0 : Fin 2) * 20000 + 20000; omega
  | ⟨1, _⟩ => show win0_7.index t (1 : Fin 2) * 1 ≤ (i 1).val ∧ (i 1).val < win0_7.index t (1 : Fin 2) * 1 + 1; omega

/-- The result array after the run is the array function of the staged arrays. -/
theorem final (c : Dev nD) : (dats m 0 c).arrAt 7 cfg0.N
    = outArr (V m c main_v7) (V m c main_v8) (V m c main_v9) (V m c main_v10) (V m c main_v12) (V m c main_v11) (V m c main_v13) :=
  (dats m 0 c).arrAt_eq_of_cover 7 _ (fun t _ => flushed_eq m c t) covered

/-- The kernel's run, with its result array named as that function and the arguments unchanged. -/
theorem run : θ_run defs (onTc (τ := τ) (main (F := Ideal))) ⟨m, fun _ => 0, ρ⟩ fun r => ∀ c : Dev nD,
      r.2.mem ((c : Thread nD τ).loc main_v14)
        = outArr (V m c main_v7) (V m c main_v8) (V m c main_v9) (V m c main_v10) (V m c main_v12) (V m c main_v11) (V m c main_v13)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.EdgeArray

end
-- ==== Proof.KernelInputs.lean ====
/-
  What the region finds in the seven arrays it stages, as functions of the program's arguments.
  The host operations before the region, in three stretches. First: take row 0 of the edge index array. Second: look
  each index up in the embedding table (a negative index counts from the end; where the index is then outside
  0 .. 99999 the row is the not-a-number pattern, elsewhere the table's row). Third: add the weight matrix's bands
  0..15 and 16..31; cut its band 32..35; narrow every float array to bf16 (no change on the extended reals); view the
  two bias vectors as one-row matrices. Each stretch is read by itself, over any contents before it.
-/
import proofs.«422278_j9302899163220_2_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.Inputs

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]

/-- The source-node indices: row 0 of the edge index array, as a vector of 1600000 words. -/
def srcIdx (a1 : IVec S2x1600000 32) : IVec S1600000 32 :=
  shapeCast S1600000 (extractStridedSlice S1x1600000 ![0, 0] a1 slices_S2x1600000_S1x1600000_0_0) shapeCasts_S1x1600000_S1600000

/-- The indices as looked up: a negative index counts from the end of the 100000 rows; as a one-column matrix. -/
def normIdx (I : IVec S1600000 32) : IVec S1600000x1 32 :=
  broadcastInDim S1600000x1 ![0] bcast_S1600000_S1600000x1_0
    (select (cmpi .slt I (broadcastInDim S1600000 ![] bcast_S_S1600000 (constantI S_ 32 0#32)))
      (addi I (broadcastInDim S1600000 ![] bcast_S_S1600000 (constantI S_ 32 100000#32))) I)

/-- Per edge: is the looked-up index inside 0 .. 99999? -/
def inRange (w : IVec S1600000x1 32) : IVec S1600000 1 :=
  Host.reduce IntOp.andi
    (andi (cmpi .sge w (broadcastInDim S1600000x1 ![] bcast_S_S1600000x1 (constantI S_ 32 0#32)))
      (cmpi .sle w (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows the kernel's program takes from the table: the gathered row where the index is in range, the
    not-a-number pattern elsewhere. -/
def takeRows (E : FVec F S100000x16 .f32) (I : IVec S1600000 32) : FVec F S1600000x16 .f32 :=
  select (broadcastInDim S1600000x16 ![0] bcast_S1600000_S1600000x16_0 (inRange (normIdx I)))
    (Host.gather gather_S100000x16_S1600000x1_S1600000x16_1_0_n_n_0_1_116 E (normIdx I))
    (broadcastInDim S1600000x16 ![] bcast_S_S1600000x16 (constant S_ .f32 0x7FC00000#32))

/-! ## The second stretch (the table lookup), cut in three: the looked-up indices; the range test; the rows -/

/-- The looked-up indices: operations 1 to 8 of the lookup. -/
abbrev opsA : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1600000, .i32⟩) (broadcastInDim S1600000 ![] bcast_S_S1600000),
    StableHlo.TRef.binary (.of main_v1 : StableHlo.TRef sig ⟨S1600000, .i32⟩) (.of main_call0_v0 : StableHlo.TRef sig ⟨S1600000, .i32⟩) (.of main_call0_v1 : StableHlo.TRef sig ⟨S1600000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1600000, .i32⟩) (broadcastInDim S1600000 ![] bcast_S_S1600000),
    StableHlo.TRef.binary (.of main_v1 : StableHlo.TRef sig ⟨S1600000, .i32⟩) (.of main_call0_v2 : StableHlo.TRef sig ⟨S1600000, .i32⟩) (.of main_call0_v3 : StableHlo.TRef sig ⟨S1600000, .i32⟩) addi,
    StableHlo.TRef.ternary (.of main_call0_v1 : StableHlo.TRef sig ⟨S1600000, .i1⟩) (.of main_call0_v3 : StableHlo.TRef sig ⟨S1600000, .i32⟩) (.of main_v1 : StableHlo.TRef sig ⟨S1600000, .i32⟩) (.of main_call0_v4 : StableHlo.TRef sig ⟨S1600000, .i32⟩) select,
    StableHlo.TRef.unary main_call0_call0.v0 (.of main_call0_v5 : StableHlo.TRef sig ⟨S1600000x1, .i32⟩) (broadcastInDim S1600000x1 ![0] bcast_S1600000_S1600000x1_0) ]

/-- The range test: operations 9 to 18 of the lookup. -/
abbrev opsB : List (HloOp τ sig (Elt F)) :=
  [ StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1600000x1, .i32⟩) (broadcastInDim S1600000x1 ![] bcast_S_S1600000x1),
    StableHlo.TRef.binary (.of main_call0_v5 : StableHlo.TRef sig ⟨S1600000x1, .i32⟩) (.of main_call0_v6 : StableHlo.TRef sig ⟨S1600000x1, .i32⟩) (.of main_call0_v7 : StableHlo.TRef sig ⟨S1600000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1600000x1, .i32⟩) (broadcastInDim S1600000x1 ![0, 1] bcast_S1x1_S1600000x1_0_1),
    StableHlo.TRef.binary (.of main_call0_v5 : StableHlo.TRef sig ⟨S1600000x1, .i32⟩) (.of main_call0_v9 : StableHlo.TRef sig ⟨S1600000x1, .i32⟩) (.of main_call0_v10 : StableHlo.TRef sig ⟨S1600000x1, .i1⟩) (cmpi .sle),
    StableHlo.TRef.binary (.of main_call0_v7 : StableHlo.TRef sig ⟨S1600000x1, .i1⟩) (.of main_call0_v10 : StableHlo.TRef sig ⟨S1600000x1, .i1⟩) (.of main_call0_v11 : StableHlo.TRef sig ⟨S1600000x1, .i1⟩) andi,
    StableHlo.TRef.nullary (.of main_call0_c_3 : StableHlo.TRef sig ⟨S_, .i1⟩) (constantI S_ 1 1#1),
    StableHlo.TRef.binary (.of main_call0_v11 : StableHlo.TRef sig ⟨S1600000x1, .i1⟩) (.of main_call0_c_3 : StableHlo.TRef sig ⟨S_, .i1⟩) (.of main_call0_v12 : StableHlo.TRef sig ⟨S1600000, .i1⟩) (fun x v => Host.reduce IntOp.andi x v reducesTo_S1600000x1_S1600000_d1 h_S_) ]

/-- The rows: operations 19 to 23 of the lookup. -/
abbrev opsC : List (HloOp τ sig (Elt F)) :=
  [ StableHlo.TRef.binary (.of main_arg0 : StableHlo.TRef sig ⟨S100000x16, .f32⟩) (.of main_call0_v5 : StableHlo.TRef sig ⟨S1600000x1, .i32⟩) (.of main_call0_v13 : StableHlo.TRef sig ⟨S1600000x16, .f32⟩) (fun x i => Host.gather gather_S100000x16_S1600000x1_S1600000x16_1_0_n_n_0_1_116 x i),
    StableHlo.TRef.unary (.of main_call0_v12 : StableHlo.TRef sig ⟨S1600000, .i1⟩) (.of main_call0_v14 : StableHlo.TRef sig ⟨S1600000x16, .i1⟩) (broadcastInDim S1600000x16 ![0] bcast_S1600000_S1600000x16_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1600000x16, .f32⟩) (broadcastInDim S1600000x16 ![] bcast_S_S1600000x16),
    StableHlo.TRef.ternary (.of main_call0_v14 : StableHlo.TRef sig ⟨S1600000x16, .i1⟩) (.of main_call0_v13 : StableHlo.TRef sig ⟨S1600000x16, .f32⟩) (.of main_call0_v15 : StableHlo.TRef sig ⟨S1600000x16, .f32⟩) (.of main_v2 : StableHlo.TRef sig ⟨S1600000x16, .f32⟩) select ]

theorem lookup_split : (hostOps0_1 : List (HloOp τ sig (Elt F))) = opsA ++ (opsB ++ opsC) := rfl

/-! ## Each stretch over any contents before it -/

section Stretches

variable (M : Valuation τ sig (Elt F))

/-- The first stretch computes the source indices -/
theorem s0_idx : (after hostOps0 M (Proc.devRef .tc main_v1) : IVec S1600000 32)
    = srcIdx (M (Proc.devRef .tc main_arg1)) := by
  simp only [hostOps0]
  after_results
  rfl

/-- and leaves the table alone. -/
theorem s0_keep_arg0 : after hostOps0 M (Proc.devRef .tc main_arg0) = M (Proc.devRef .tc main_arg0) := by
  simp only [hostOps0]
  after_results

theorem a_idx : (after opsA M (Proc.devRef .tc main_call0_v5) : IVec S1600000x1 32)
    = normIdx (M (Proc.devRef .tc main_v1)) := by
  simp only [opsA]
  after_results
  simp only [TRef.ofBuf, TRef.toBuf, cast_eq]
  rfl
theorem a_keep_arg0 : after opsA M (Proc.devRef .tc main_arg0) = M (Proc.devRef .tc main_arg0) := by
  simp only [opsA]
  after_results
theorem b_range : (after opsB M (Proc.devRef .tc main_call0_v12) : IVec S1600000 1)
    = inRange (M (Proc.devRef .tc main_call0_v5)) := by
  simp only [opsB]
  after_results
  simp only [TRef.ofBuf, TRef.toBuf, cast_eq]
  rfl
theorem b_keep_idx : after opsB M (Proc.devRef .tc main_call0_v5) = M (Proc.devRef .tc main_call0_v5) := by
  simp only [opsB]
  after_results
theorem b_keep_arg0 : after opsB M (Proc.devRef .tc main_arg0) = M (Proc.devRef .tc main_arg0) := by
  simp only [opsB]
  after_results
theorem c_rows : (after opsC M (Proc.devRef .tc main_v2) : FVec F S1600000x16 .f32)
    = select (broadcastInDim S1600000x16 ![0] bcast_S1600000_S1600000x16_0 (M (Proc.devRef .tc main_call0_v12)))
        (Host.gather gather_S100000x16_S1600000x1_S1600000x16_1_0_n_n_0_1_116 (M (Proc.devRef .tc main_arg0)) (M (Proc.devRef .tc main_call0_v5)))
        (broadcastInDim S1600000x16 ![] bcast_S_S1600000x16 (constant S_ .f32 0x7FC00000#32)) := by
  simp only [opsC]
  after_results
  simp only [TRef.ofBuf, TRef.toBuf, cast_eq]

/-- The second stretch takes the rows. -/
theorem s1_rows : (after hostOps0_1 M (Proc.devRef .tc main_v2) : FVec F S1600000x16 .f32)
    = takeRows (M (Proc.devRef .tc main_arg0)) (M (Proc.devRef .tc main_v1)) := by
  rw [lookup_split, StableHlo.after_append, StableHlo.after_append, c_rows, b_range, b_keep_idx, b_keep_arg0, a_idx, a_keep_arg0]
  rfl

/-- The third stretch: each staged array from what the stretch finds. -/
theorem s2_src : (after hostOps0_2 M (Proc.devRef .tc main_v7) : S1600000x16.Idx → Elt F .bf16)
    = truncf .bf16 (M (Proc.devRef .tc main_v2)) bitsLt_bf16_f32 := by
  simp only [hostOps0_2]
  after_results
theorem s2_attr : (after hostOps0_2 M (Proc.devRef .tc main_v8) : S1600000x4.Idx → Elt F .bf16)
    = truncf .bf16 (M (Proc.devRef .tc main_arg2)) bitsLt_bf16_f32 := by
  simp only [hostOps0_2]
  after_results
theorem s2_wc : (after hostOps0_2 M (Proc.devRef .tc main_v9) : S16x8.Idx → Elt F .bf16)
    = truncf .bf16 (addf (extractStridedSlice S16x8 ![0, 0] (M (Proc.devRef .tc main_arg3)) slices_S36x8_S16x8_0_0)
        (extractStridedSlice S16x8 ![16, 0] (M (Proc.devRef .tc main_arg3)) slices_S36x8_S16x8_16_0)) bitsLt_bf16_f32 := by
  simp only [hostOps0_2]
  after_results
theorem s2_wa : (after hostOps0_2 M (Proc.devRef .tc main_v10) : S4x8.Idx → Elt F .bf16)
    = truncf .bf16 (extractStridedSlice S4x8 ![32, 0] (M (Proc.devRef .tc main_arg3)) slices_S36x8_S4x8_32_0) bitsLt_bf16_f32 := by
  simp only [hostOps0_2]
  after_results
theorem s2_b1 : (after hostOps0_2 M (Proc.devRef .tc main_v12) : S1x8.Idx → Elt F .f32)
    = shapeCast S1x8 (M (Proc.devRef .tc main_arg4)) shapeCasts_S8_S1x8 := by
  simp only [hostOps0_2]
  after_results
  rfl
theorem s2_w2 : (after hostOps0_2 M (Proc.devRef .tc main_v11) : S8x1.Idx → Elt F .bf16)
    = truncf .bf16 (M (Proc.devRef .tc main_arg5)) bitsLt_bf16_f32 := by
  simp only [hostOps0_2]
  after_results
theorem s2_b2 : (after hostOps0_2 M (Proc.devRef .tc main_v13) : S1x1.Idx → Elt F .f32)
    = shapeCast S1x1 (M (Proc.devRef .tc main_arg6)) shapeCasts_S1_S1x1 := by
  simp only [hostOps0_2]
  after_results
  rfl

/-- The third stretch writes none of the arguments it reads. -/
theorem s2_keep_arg2 : after hostOps0_2 M (Proc.devRef .tc main_arg2) = M (Proc.devRef .tc main_arg2) := by
  simp only [hostOps0_2]
  after_results
theorem s2_keep_arg3 : after hostOps0_2 M (Proc.devRef .tc main_arg3) = M (Proc.devRef .tc main_arg3) := by
  simp only [hostOps0_2]
  after_results
theorem s2_keep_arg4 : after hostOps0_2 M (Proc.devRef .tc main_arg4) = M (Proc.devRef .tc main_arg4) := by
  simp only [hostOps0_2]
  after_results
theorem s2_keep_arg5 : after hostOps0_2 M (Proc.devRef .tc main_arg5) = M (Proc.devRef .tc main_arg5) := by
  simp only [hostOps0_2]
  after_results
theorem s2_keep_arg6 : after hostOps0_2 M (Proc.devRef .tc main_arg6) = M (Proc.devRef .tc main_arg6) := by
  simp only [hostOps0_2]
  after_results

end Stretches

/-! ## The region's arrays -/

variable (m : (ℓ : Loc nD τ sig) → Buf (Elt F) ℓ)

/-- The contents at the region's entry are the three stretches, one after the other. -/
theorem V_split (c : Dev nD) (b : Ref sig .tc) :
    V m c b = after hostOps0_2 (after hostOps0_1 (after hostOps0 (fun b => m (c, b)))) (Proc.devRef .tc b) := by
  dsimp only [Gen.V]
  simp only [List.flatten_cons, List.flatten_nil, List.append_nil, StableHlo.after_append]

/-- An argument the third stretch does not write is, before that stretch, as launched. -/
theorem arg_before_tail (c : Dev nD) (b : Ref sig .tc)
    (hkeep : ∀ M : Valuation τ sig (Elt F), after hostOps0_2 M (Proc.devRef .tc b) = M (Proc.devRef .tc b))
    (hV : V m c b = m ((c : Thread nD τ).loc b)) :
    after hostOps0_1 (after hostOps0 (fun b => m (c, b))) (Proc.devRef .tc b) = m ((c : Thread nD τ).loc b) :=
  ((hkeep _).symm.trans (V_split m c b).symm).trans hV

/-- Window 0's array: the taken rows, narrowed. -/
theorem V_src (c : Dev nD) : (V m c main_v7 : S1600000x16.Idx → Elt F .bf16)
    = truncf .bf16 (takeRows (m ((c : Thread nD τ).loc main_arg0)) (srcIdx (m ((c : Thread nD τ).loc main_arg1)))) bitsLt_bf16_f32 := by
  rw [V_split, s2_src, s1_rows, s0_idx, s0_keep_arg0]

/-- Window 1's array: the edge attributes, narrowed. -/
theorem V_attr (c : Dev nD) : (V m c main_v8 : S1600000x4.Idx → Elt F .bf16)
    = truncf .bf16 (m ((c : Thread nD τ).loc main_arg2)) bitsLt_bf16_f32 := by
  rw [V_split, s2_attr, arg_before_tail m c main_arg2 s2_keep_arg2 (V_main_arg2 m c)]

/-- Window 2's array: the sum of the weight matrix's bands 0..15 and 16..31, narrowed. -/
theorem V_wc (c : Dev nD) : (V m c main_v9 : S16x8.Idx → Elt F .bf16)
    = truncf .bf16 (addf (extractStridedSlice S16x8 ![0, 0] (m ((c : Thread nD τ).loc main_arg3)) slices_S36x8_S16x8_0_0)
        (extractStridedSlice S16x8 ![16, 0] (m ((c : Thread nD τ).loc main_arg3)) slices_S36x8_S16x8_16_0)) bitsLt_bf16_f32 := by
  rw [V_split, s2_wc, arg_before_tail m c main_arg3 s2_keep_arg3 (V_main_arg3 m c)]

/-- Window 3's array: the weight matrix's band 32..35, narrowed. -/
theorem V_wa (c : Dev nD) : (V m c main_v10 : S4x8.Idx → Elt F .bf16)
    = truncf .bf16 (extractStridedSlice S4x8 ![32, 0] (m ((c : Thread nD τ).loc main_arg3)) slices_S36x8_S4x8_32_0) bitsLt_bf16_f32 := by
  rw [V_split, s2_wa, arg_before_tail m c main_arg3 s2_keep_arg3 (V_main_arg3 m c)]

/-- Window 4's array: the first bias as a one-row matrix. -/
theorem V_b1 (c : Dev nD) : (V m c main_v12 : S1x8.Idx → Elt F .f32)
    = shapeCast S1x8 (m ((c : Thread nD τ).loc main_arg4)) shapeCasts_S8_S1x8 := by
  rw [V_split, s2_b1, arg_before_tail m c main_arg4 s2_keep_arg4 (V_main_arg4 m c)]

/-- Window 5's array: the output weights, narrowed. -/
theorem V_w2 (c : Dev nD) : (V m c main_v11 : S8x1.Idx → Elt F .bf16)
    = truncf .bf16 (m ((c : Thread nD τ).loc main_arg5)) bitsLt_bf16_f32 := by
  rw [V_split, s2_w2, arg_before_tail m c main_arg5 s2_keep_arg5 (V_main_arg5 m c)]

/-- Window 6's array: the output bias as a one-by-one matrix. -/
theorem V_b2 (c : Dev nD) : (V m c main_v13 : S1x1.Idx → Elt F .f32)
    = shapeCast S1x1 (m ((c : Thread nD τ).loc main_arg6)) shapeCasts_S1_S1x1 := by
  rw [V_split, s2_b2, arg_before_tail m c main_arg6 s2_keep_arg6 (V_main_arg6 m c)]

end Cert.KernelIdeal.Inputs

end
-- ==== Proof.RefRead.lean ====
/-
  The reference's result, read at one edge.
  Edge e's row of the concatenated array is [g, g, a]: the gathered table row g of the edge twice, then the edge's 4
  attributes a. The reference multiplies that row with the 36 x 8 weights, adds the bias, applies tanh, multiplies
  with the 8 x 1 output weights, adds the output bias, and computes 1 / (1 + exp(-x)), which is the logistic function.
-/
import proofs.«422278_j9302899163220_2_alg».proof.Proof.Gen.ReferenceIdeal.Read
import proofs.«422278_j9302899163220_2_alg».proof.Proof.RowMath
import Idealize.ShloMosaic.Lib.IdealHost

noncomputable section

namespace Cert.ReferenceIdeal.EdgeRef

open Cert.ReferenceIdeal Cert.ReferenceIdeal.Gen Cert.ReferenceIdeal.Read Cert.RowMath
open Idealize.ShloMosaic Idealize.ShloMosaic.ValueIdx

/-- Row e of the concatenation: the gathered row twice, then the attributes. -/
theorem concat_apply (x0 : FVec Ideal S100000x16 .f32) (x1 : IVec S2x1600000 32) (x2 : FVec Ideal S1600000x4 .f32)
    (e : Fin 1600000) (i : Fin 36) :
    val_main_v9 (F := Ideal) x0 x1 x2 (ix2 e i)
      = cat (fun j => val_main_v8 (F := Ideal) x0 x1 (ix2 e j)) (fun j => x2 (ix2 e j)) i := by
  unfold val_main_v9 cat
  generalize val_main_v8 (F := Ideal) x0 x1 = G
  by_cases h16 : i.val < 16
  · rw [dif_pos h16]
    refine concatenate_apply_piece (t := S1600000x36) (1 : Fin S1600000x36.rank) [⟨S1600000x16, G⟩, ⟨S1600000x16, G⟩, ⟨S1600000x4, x2⟩] concatenates_S1600000x16_S1600000x16_S1600000x4_S1600000x36_d1 (ix2 e i) 0 (show 0 < 3 by omega) S1600000x16 G rfl rfl 0 rfl
      (ix2 e (⟨i.val, h16⟩ : Fin 16)) (fun b hb => ?_) ?_
    · match b with
      | ⟨0, _⟩ => rfl
      | ⟨1, _⟩ => exact absurd rfl hb
    · show 0 + i.val = i.val
      omega
  · rw [dif_neg h16]
    by_cases h32 : i.val < 32
    · rw [dif_pos h32]
      refine concatenate_apply_piece (t := S1600000x36) (1 : Fin S1600000x36.rank) [⟨S1600000x16, G⟩, ⟨S1600000x16, G⟩, ⟨S1600000x4, x2⟩] concatenates_S1600000x16_S1600000x16_S1600000x4_S1600000x36_d1 (ix2 e i) 1 (show 1 < 3 by omega) S1600000x16 G rfl rfl 16 rfl
        (ix2 e (⟨i.val - 16, by omega⟩ : Fin 16)) (fun b hb => ?_) ?_
      · match b with
        | ⟨0, _⟩ => rfl
        | ⟨1, _⟩ => exact absurd rfl hb
      · show 16 + (i.val - 16) = i.val
        omega
    · rw [dif_neg h32]
      refine concatenate_apply_piece (t := S1600000x36) (1 : Fin S1600000x36.rank) [⟨S1600000x16, G⟩, ⟨S1600000x16, G⟩, ⟨S1600000x4, x2⟩] concatenates_S1600000x16_S1600000x16_S1600000x4_S1600000x36_d1 (ix2 e i) 2 (show 2 < 3 by omega) S1600000x4 x2 rfl rfl 32 rfl
        (ix2 e (⟨i.val - 32, by have := i.isLt; omega⟩ : Fin 4)) (fun b hb => ?_) ?_
      · match b with
        | ⟨0, _⟩ => rfl
        | ⟨1, _⟩ => exact absurd rfl hb
      · show 32 + (i.val - 32) = i.val
        omega

/-- The reference's result at edge e. -/
theorem ref_apply (x0 : FVec Ideal S100000x16 .f32) (x1 : IVec S2x1600000 32) (x2 : FVec Ideal S1600000x4 .f32)
    (x3 : FVec Ideal S36x8 .f32) (x4 : FVec Ideal S8 .f32) (x5 : FVec Ideal S8x1 .f32) (x6 : FVec Ideal S1 .f32)
    (e : Fin 1600000) (z : Fin 1) :
    val_main_v24 (F := Ideal) x0 x1 x2 x3 x4 x5 x6 (ix2 e z)
      = refOut (fun i => val_main_v9 (F := Ideal) x0 x1 x2 (ix2 e i)) (fun i k => x3 (ix2 i k)) (fun k => x4 (ix1 k))
          (fun k => x5 (ix2 k (0 : Fin 1))) (x6 (ix1 (0 : Fin 1))) := by
  have hz : z = (0 : Fin 1) := Subsingleton.elim _ _
  subst hz
  have hl15 : ∀ k : Fin 8, lidx_main_v15 (ix2 e (0 : Fin 1)) k = ix2 e k := fun k =>
    funext fun a => Fin.ext (by match a with | ⟨0, _⟩ => rfl | ⟨1, _⟩ => rfl)
  have hr15 : ∀ k : Fin 8, ridx_main_v15 (ix2 e (0 : Fin 1)) k = ix2 k (0 : Fin 1) := fun k =>
    funext fun a => Fin.ext (by match a with | ⟨0, _⟩ => rfl | ⟨1, _⟩ => rfl)
  have hl10 : ∀ (k : Fin 8) (i : Fin 36), lidx_main_v10 (ix2 e k) i = ix2 e i := fun k i =>
    funext fun a => Fin.ext (by match a with | ⟨0, _⟩ => rfl | ⟨1, _⟩ => rfl)
  have hr10 : ∀ (k : Fin 8) (i : Fin 36), ridx_main_v10 (ix2 e k) i = ix2 i k := fun k i =>
    funext fun a => Fin.ext (by match a with | ⟨0, _⟩ => rfl | ⟨1, _⟩ => rfl)
  have h12 : ∀ k : Fin 8, idx_main_v11 (idx_main_v12 (ix2 e k)) = ix1 k := fun k =>
    funext fun a => Fin.ext (by match a with | ⟨0, _⟩ => rfl)
  have h16 : idx_main_v16 (idx_main_v17 (ix2 e (0 : Fin 1))) = ix1 (0 : Fin 1) :=
    funext fun a => Fin.ext (by match a with | ⟨0, _⟩ => rfl)
  rw [val_main_v24_apply, val_main_v23_apply, val_main_cst_1_apply, val_main_v22_apply, val_main_v21_apply,
    val_main_cst_apply, val_main_v20_apply, val_main_v19_apply, val_main_v18_apply, val_main_v15_apply,
    val_main_v17_apply, val_main_v16_apply, h16]
  simp only [hl15, hr15, val_main_v14_apply, val_main_v13_apply, val_main_v10_apply, val_main_v12_apply,
    val_main_v11_apply, hl10, hr10, h12]
  unfold refOut Ideal.logistic
  simp only [Ideal.hostDivf_def, Ideal.ofBits_def, Ideal.ofBits_one_f32, Ideal.addf_def, Ideal.hostUnary_exp_def,
    Ideal.hostNegf_def, Ideal.negf_def, Ideal.hostUnary_tanh_def]

end Cert.ReferenceIdeal.EdgeRef

end
-- ==== Proof.LibGatherRows.lean ====
/-
  Two of jax's gathers read at an index, for any extents.
  Rows of a table: the table[idx] of an N x D table at a column of R start indices is, at (r, j), the table's
  entry (idx r, j) with the start index read signed and clamped into the table's rows.
  Along a row: take_along_axis of an R x N array at one index per row is, at (r, 0), the array's entry
  (r, idx r), the index read signed and clamped into the row.
-/
import Idealize.ShloMosaic.PureOps
import Idealize.ShloMosaic.Lib.ValueIdx

noncomputable section

namespace Cert.LibGatherRows

open Idealize.ShloMosaic Idealize.ShloMosaic.ValueIdx

variable {α : Type}

/-- Axis 1 of a rank-2 operand is not among the axes [0]. -/
private theorem one_notMem_zero : (1 : Fin 2) ∉ ([0] : List (Fin 2)) := by decide

/-- The dimension numbers of table[idx]: operand N x D, start indices R x 1, result R x D; the row axis is
    collapsed and indexed, the column axis is the offset axis, whole rows are sliced. -/
abbrev rowTakeDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The gathered rows read at (r, j): the table at the clamped start index of row r, column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowTakeDims N D R wf) x idx (ix2 r j)
      = x (ix2 (⟨min (idx (ix2 r (0 : Fin 1))).toInt.toNat (N - 1), by omega⟩ : Fin N) j) := by
  -- the gather reads the table at its operand index; compare the two operand indices axis by axis, as numbers:
  -- on each axis the operand index is (clamped start) + (batching coordinate) + (offset coordinate)
  unfold Host.gather
  congr 1
  funext a
  refine Fin.ext ?_
  match a with
  | ⟨0, _⟩ =>
    -- axis 0, the table's rows: collapsed and indexed. No batching axes, and a collapsed axis carries no offset,
    -- so only the start is left: the start index of result row r, clamped to N - 1 (rows minus the slice size 1)
    show (rowTakeDims N D R wf).start (ix2 r j) idx 0 + (rowTakeDims N D R wf).batchCoord (ix2 r j) 0
      + (rowTakeDims N D R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D R wf).startIndexMap from List.mem_singleton.mpr rfl)]
    -- the start index is read at (r, 0): r from the result's batch axis 0, and component 0 on the index vector's axis 1
    have hsi : (rowTakeDims N D R wf).siIdx (ix2 r j) ⟨List.idxOf (0 : Fin 2) (rowTakeDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- axis 1, the table's columns: the offset axis. It is not in the start index map, so the start is 0; no batching
    -- axes; it is the only kept operand axis, paired with the result's offset axis 1, whose coordinate is j
    show (rowTakeDims N D R wf).start (ix2 r j) idx 1 + (rowTakeDims N D R wf).batchCoord (ix2 r j) 1
      + (rowTakeDims N D R wf).offCoord (ix2 r j) 1 = j.val
    rw [GatherDims.batchCoord_eq_zero _ _ _ List.not_mem_nil]
    unfold GatherDims.start
    rw [dif_neg (show (1 : Fin 2) ∉ (rowTakeDims N D R wf).startIndexMap from one_notMem_zero)]
    unfold GatherDims.offCoord
    rw [dif_pos (show (1 : Fin 2) ∈ (rowTakeDims N D R wf).sKept from
      (GatherDims.mem_sKept _ _).mpr ⟨one_notMem_zero, List.not_mem_nil⟩)]
    simp only [Nat.zero_add]
    rfl

/-- The dimension numbers of take_along_axis on the last axis with one index per row: operand R x N, start
    indices R x 1 x 1, result R x 1; the row axis is a batching axis on both sides, the column axis is collapsed
    and indexed. -/
abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The gathered column read at (r, 0): row r of the array at its clamped start index. -/
theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (alongDims R N wf) x idx (ix2 r (0 : Fin 1))
      = x (ix2 r (⟨min (idx (ix3 r (0 : Fin 1) (0 : Fin 1))).toInt.toNat (N - 1), by omega⟩ : Fin N)) := by
  -- again the two operand indices are compared axis by axis, as numbers
  unfold Host.gather
  congr 1
  funext a
  refine Fin.ext ?_
  match a with
  | ⟨0, _⟩ =>
    -- axis 0, the array's rows: the batching axis. A batching axis has start 0 and no offset (no operand axis is kept);
    -- its batching coordinate is the result's coordinate for start-indices axis 0, that is result axis 0: r
    show (alongDims R N wf).start (ix2 r (0 : Fin 1)) idx 0 + (alongDims R N wf).batchCoord (ix2 r (0 : Fin 1)) 0
      + (alongDims R N wf).offCoord (ix2 r (0 : Fin 1)) 0 = r.val
    rw [GatherDims.start_batching _ _ _ _ (show (0 : Fin 2) ∈ (alongDims R N wf).operandBatchingDims from
        List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims R N wf).operandBatchingDims from List.mem_singleton.mpr rfl)]
    rfl
  | ⟨1, _⟩ =>
    -- axis 1, along a row: collapsed and indexed. Not a batching axis and it carries no offset, so only the start is
    -- left: the start index of result row r, clamped to N - 1 (row length minus the slice size 1)
    show (alongDims R N wf).start (ix2 r (0 : Fin 1)) idx 1 + (alongDims R N wf).batchCoord (ix2 r (0 : Fin 1)) 1
      + (alongDims R N wf).offCoord (ix2 r (0 : Fin 1)) 1 = _
    rw [GatherDims.batchCoord_eq_zero _ _ _ (show (1 : Fin 2) ∉ (alongDims R N wf).operandBatchingDims from
        one_notMem_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N wf).startIndexMap from List.mem_singleton.mpr rfl)]
    -- the start index is read at (r, 0, 0): r and 0 from the result's batch axes 0 and 1, and component 0 on the
    -- index vector's axis 2
    have hsi : (alongDims R N wf).siIdx (ix2 r (0 : Fin 1)) ⟨List.idxOf (1 : Fin 2) (alongDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRows

end
-- ==== Proof.Bridge.lean ====
/-
  The kernel's result array is the reference's.
  With every source index in 0 .. 99999 the kernel's table lookup never writes its not-a-number pattern: the looked-up
  index is the index itself, the range test is passed on every edge, and the taken rows are the gathered rows, the
  same ones the reference gathers. The gathered rows are rows of the finite table, the weights are finite, so the
  folded first layer gives the reference's hidden pre-activations (the algebra of one edge's row), and from there both
  programs apply the same functions.
-/
import proofs.«422278_j9302899163220_2_alg».proof.Proof.KernelArray
import proofs.«422278_j9302899163220_2_alg».proof.Proof.KernelInputs
import proofs.«422278_j9302899163220_2_alg».proof.Proof.RefRead
import proofs.«422278_j9302899163220_2_alg».proof.Proof.LibGatherRows
import Idealize.ShloMosaic.Lib.StableHlo.Predicate

noncomputable section

namespace Cert.Bridge

open Cert.RowMath Cert.KernelIdeal.EdgeArray Cert.KernelIdeal.Inputs
open Idealize.ShloMosaic Idealize.ShloMosaic.ValueIdx Idealize.ShloMosaic.StableHlo.Predicate

/-! ## Words: a signed index in 0 .. 99999 -/

/-- A word at least 0 and below 100000 as a signed number is below 100000 as an unsigned one. -/
theorem toNat_lt_of_signed (x : BitVec 32) (h0 : IntOp.cmpi .sge x 0#32 = 1#1) (h1 : IntOp.cmpi .slt x 100000#32 = 1#1) :
    x.toNat < 100000 := by
  unfold IntOp.cmpi at h0 h1
  rw [ofBool_eq_one_iff] at h0 h1
  simp only [BitVec.slt, BitVec.sle, decide_eq_true_eq] at h0 h1
  have h32 := x.isLt
  have e0 : (0#32 : BitVec 32).toInt = 0 := by decide
  have e1 : (100000#32 : BitVec 32).toInt = 100000 := by decide
  rw [e0] at h0
  rw [e1] at h1
  have hx : x.toInt = if 2 * x.toNat < 2 ^ 32 then (x.toNat : Int) else (x.toNat : Int) - (2 ^ 32 : Nat) :=
    BitVec.toInt_eq_toNat_cond x
  by_cases hlt : 2 * x.toNat < 2 ^ 32
  · rw [if_pos hlt] at hx; omega
  · rw [if_neg hlt] at hx; omega

/-- Such a word is not negative, and is at most 99999. -/
theorem word_in_range (x : BitVec 32) (h0 : IntOp.cmpi .sge x 0#32 = 1#1) (h1 : IntOp.cmpi .slt x 100000#32 = 1#1) :
    IntOp.cmpi .slt x 0#32 = 0#1 ∧ IntOp.cmpi .sle x 99999#32 = 1#1 := by
  have hx := toNat_lt_of_signed x h0 h1
  have hx31 : x.toNat < 2 ^ 31 := by omega
  have t0 : (0#32 : BitVec 32).toNat = 0 := by decide
  have t9 : (99999#32 : BitVec 32).toNat = 99999 := by decide
  refine ⟨eq_zero_of_ne_one fun h => ?_, ?_⟩
  · rw [slt_iff_toNat hx31 (by decide)] at h
    omega
  · rw [sle_iff_toNat hx31 (by decide)]
    omega

/-! ## The range test passes on every edge -/

theorem foldl_andi_all_one {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_all_one f hf l

section Kernel

open Cert.KernelIdeal

/-- The looked-up index of an in-range source index is the index itself. -/
theorem normIdx_apply (I : IVec S1600000 32) (hlo : ∀ i, IntOp.cmpi .sge (I i) 0#32 = 1#1)
    (hhi : ∀ i, IntOp.cmpi .slt (I i) 100000#32 = 1#1) (e : Fin 1600000) (z : Fin 1) :
    normIdx I (ix2 e z) = I (ix1 e) := by
  unfold normIdx
  rw [broadcastInDim_apply _ _ _ (ix2 e z) (ix1 e) (fun a => by
    match a with
    | ⟨0, _⟩ => show e.val = if (1600000 : Nat) = 1 then 0 else e.val; rw [if_neg (by decide)])]
  show Scalar.select (IntOp.cmpi .slt (I (ix1 e)) 0#32) _ (I (ix1 e)) = _
  rw [(word_in_range _ (hlo _) (hhi _)).1, select_zero]

/-- So every edge passes the range test. -/
theorem inRange_eq_one (I : IVec S1600000 32) (hlo : ∀ i, IntOp.cmpi .sge (I i) 0#32 = 1#1)
    (hhi : ∀ i, IntOp.cmpi .slt (I i) 100000#32 = 1#1) (j : S1600000.Idx) : inRange (normIdx I) j = 1#1 := by
  unfold inRange
  rw [Host.reduce_eq_foldl]
  refine foldl_andi_all_one _ (fun idx => ?_) _
  obtain ⟨e, z, rfl⟩ : ∃ (e : Fin 1600000) (z : Fin 1), idx = ix2 e z := ⟨idx 0, idx 1, eq_ix2 idx⟩
  show IntOp.andi (IntOp.cmpi .sge (normIdx I (ix2 e z)) 0#32) (IntOp.cmpi .sle (normIdx I (ix2 e z)) 99999#32) = 1#1
  rw [normIdx_apply I hlo hhi, hlo, (word_in_range _ (hlo _) (hhi _)).2]
  decide

/-- The taken rows are the gathered rows. -/
theorem takeRows_eq (E : FVec Ideal S100000x16 .f32) (I : IVec S1600000 32) (hlo : ∀ i, IntOp.cmpi .sge (I i) 0#32 = 1#1)
    (hhi : ∀ i, IntOp.cmpi .slt (I i) 100000#32 = 1#1) :
    takeRows E I = Host.gather gather_S100000x16_S1600000x1_S1600000x16_1_0_n_n_0_1_116 E (normIdx I) := by
  funext i
  unfold takeRows
  rw [select_apply]
  obtain ⟨e, j, rfl⟩ : ∃ (e : Fin 1600000) (j : Fin 16), i = ix2 e j := ⟨i 0, i 1, eq_ix2 i⟩
  rw [broadcastInDim_apply _ _ _ (ix2 e j) (ix1 e) (fun a => by
    match a with
    | ⟨0, _⟩ => show e.val = if (1600000 : Nat) = 1 then 0 else e.val; rw [if_neg (by decide)])]
  rw [inRange_eq_one I hlo hhi, select_one]

/-- Each gathered entry is an entry of the table. -/
theorem gather_real (E : FVec Ideal S100000x16 .f32) (w : IVec S1600000x1 32) (hE : ∀ i, ∃ r : ℝ, (E i : EReal) = (r : EReal))
    (e : Fin 1600000) (j : Fin 16) :
    ∃ r : ℝ, (Host.gather gather_S100000x16_S1600000x1_S1600000x16_1_0_n_n_0_1_116 E w (ix2 e j) : EReal) = (r : EReal) := by
  have h := Cert.LibGatherRows.gather_rows_apply (N := 100000) (D := 16) (R := 1600000) (by decide)
    Facts₀.gather_S100000x16_S1600000x1_S1600000x16_1_0_n_n_0_1_116_wf E w e j
  have h' : Host.gather gather_S100000x16_S1600000x1_S1600000x16_1_0_n_n_0_1_116 E w (ix2 e j) = _ := h
  rw [h']
  exact hE _

end Kernel

/-! ## The two result arrays -/

open Cert.KernelIdeal Cert.KernelIdeal.Facts₀ in
/-- The kernel's array function of its staged arrays, written over the program's arguments, is the reference's
    result, when the table and the first layer's weights are real and the source indices are in range. -/
theorem out_eq (a0 : FVec Ideal S100000x16 .f32) (a1 : IVec S2x1600000 32) (a2 : FVec Ideal S1600000x4 .f32)
    (a3 : FVec Ideal S36x8 .f32) (a4 : FVec Ideal S8 .f32) (a5 : FVec Ideal S8x1 .f32) (a6 : FVec Ideal S1 .f32)
    (hE : ∀ i, ∃ r : ℝ, (a0 i : EReal) = (r : EReal)) (hW : ∀ i, ∃ r : ℝ, (a3 i : EReal) = (r : EReal))
    (hlo : ∀ i, IntOp.cmpi .sge (srcIdx a1 i) 0#32 = 1#1) (hhi : ∀ i, IntOp.cmpi .slt (srcIdx a1 i) 100000#32 = 1#1) :
    outArr (truncf .bf16 (takeRows a0 (srcIdx a1)) bitsLt_bf16_f32) (truncf .bf16 a2 bitsLt_bf16_f32)
        (truncf .bf16 (addf (extractStridedSlice S16x8 ![0, 0] a3 slices_S36x8_S16x8_0_0)
          (extractStridedSlice S16x8 ![16, 0] a3 slices_S36x8_S16x8_16_0)) bitsLt_bf16_f32)
        (truncf .bf16 (extractStridedSlice S4x8 ![32, 0] a3 slices_S36x8_S4x8_32_0) bitsLt_bf16_f32)
        (shapeCast S1x8 a4 shapeCasts_S8_S1x8) (truncf .bf16 a5 bitsLt_bf16_f32) (shapeCast S1x1 a6 shapeCasts_S1_S1x1)
      = Cert.ReferenceIdeal.Read.val_main_v24 (F := Ideal) a0 a1 a2 a3 a4 a5 a6 := by
  funext i
  obtain ⟨e, z, rfl⟩ : ∃ (e : Fin 1600000) (z : Fin 1), i = ix2 e z := ⟨i 0, i 1, eq_ix2 i⟩
  rw [Cert.ReferenceIdeal.EdgeRef.ref_apply, takeRows_eq a0 (srcIdx a1) hlo hhi]
  have hcat : (fun i36 => Cert.ReferenceIdeal.Read.val_main_v9 (F := Ideal) a0 a1 a2 (ix2 e i36))
      = cat (fun j => Cert.ReferenceIdeal.Read.val_main_v8 (F := Ideal) a0 a1 (ix2 e j)) (fun j => a2 (ix2 e j)) :=
    funext fun i36 => Cert.ReferenceIdeal.EdgeRef.concat_apply a0 a1 a2 e i36
  rw [hcat]
  have hgather : Cert.ReferenceIdeal.Read.val_main_v8 (F := Ideal) a0 a1
      = Host.gather gather_S100000x16_S1600000x1_S1600000x16_1_0_n_n_0_1_116 a0 (normIdx (srcIdx a1)) := rfl
  rw [hgather]
  refine Eq.trans ?_ (edgeOut_eq_refOut
    (fun j => Host.gather gather_S100000x16_S1600000x1_S1600000x16_1_0_n_n_0_1_116 a0 (normIdx (srcIdx a1)) (ix2 e j))
    (fun j => a2 (ix2 e j)) (fun i36 k => a3 (ix2 i36 k)) (fun k => a4 (ix1 k)) (fun k => a5 (ix2 k (0 : Fin 1)))
    (a6 (ix1 (0 : Fin 1))) (fun j => gather_real a0 _ hE e j) (fun i36 k => hW _))
  unfold outArr
  have hwc : ∀ (j : Fin 16) (k : Fin 8),
      (truncf .bf16 (addf (extractStridedSlice S16x8 ![0, 0] a3 slices_S36x8_S16x8_0_0)
        (extractStridedSlice S16x8 ![16, 0] a3 slices_S36x8_S16x8_16_0)) bitsLt_bf16_f32 : FVec Ideal S16x8 .bf16) (ix2 j k)
      = a3 (ix2 (⟨j.val, by omega⟩ : Fin 36) k) + a3 (ix2 (⟨16 + j.val, by omega⟩ : Fin 36) k) := fun j k => by
    show extractStridedSlice S16x8 ![0, 0] a3 slices_S36x8_S16x8_0_0 (ix2 j k)
      + extractStridedSlice S16x8 ![16, 0] a3 slices_S36x8_S16x8_16_0 (ix2 j k) = _
    rw [slice2_axis0_apply 0 a3 _ j k (⟨j.val, by omega⟩ : Fin 36) (by simp),
      slice2_axis0_apply 16 a3 _ j k (⟨16 + j.val, by omega⟩ : Fin 36) rfl]
  have hwa : ∀ (j : Fin 4) (k : Fin 8),
      (truncf .bf16 (extractStridedSlice S4x8 ![32, 0] a3 slices_S36x8_S4x8_32_0) bitsLt_bf16_f32 : FVec Ideal S4x8 .bf16) (ix2 j k)
      = a3 (ix2 (⟨32 + j.val, by omega⟩ : Fin 36) k) := fun j k => by
    show extractStridedSlice S4x8 ![32, 0] a3 slices_S36x8_S4x8_32_0 (ix2 j k) = _
    rw [slice2_axis0_apply 32 a3 _ j k (⟨32 + j.val, by omega⟩ : Fin 36) rfl]
  have hb1 : ∀ k : Fin 8, shapeCast S1x8 a4 shapeCasts_S8_S1x8 (ix2 (0 : Fin 1) k) = a4 (ix1 k) := fun k =>
    shapeCast_a_1a_apply a4 _ (0 : Fin 1) k
  have hb2 : shapeCast S1x1 a6 shapeCasts_S1_S1x1 (ix2 (0 : Fin 1) (0 : Fin 1)) = a6 (ix1 (0 : Fin 1)) :=
    shapeCast_a_1a_apply a6 _ (0 : Fin 1) (0 : Fin 1)
  simp only [hwc, hwa, hb1, hb2]
  rfl

end Cert.Bridge

end
-- ==== Proof.lean ====
/-
  An edge classifier of a graph network: for each of 1600000 edges, the embedding row of the edge's source node
  (taken twice) and the edge's 4 attributes go through a 36 -> 8 -> 1 perceptron with tanh and a logistic output.
  The reference gathers the rows, concatenates [row, row, attributes] and multiplies with the 36 x 8 weights. The
  kernel's program gathers the rows on the host too, folds the duplicated row into the weights (the sum of the weight
  matrix's first two 16-row bands) and runs the perceptron in a Pallas kernel over 80 blocks of 20000 edges, all
  matrix operands narrowed to bf16, which changes nothing on the extended reals.
  The claim is stated for finite float inputs and source-node indices in 0 .. 99999 (outside that range the reference
  indexes the table out of range: it clamps, while the kernel's lookup writes not-a-number rows).
  The three frames: the two kernel programs by their generated frame certificates, the reference by its generated run.
  The value claim: the kernel's result array, block by block, is one function of the staged arrays (KernelBlock,
  KernelArray); the staged arrays are host functions of the arguments (KernelInputs); the reference's result is read
  at an edge (RefRead); under the precondition (PreRead) the lookup's range test always passes and the gathered rows
  and the weights are real numbers, so the folded first layer equals the concatenated one (RowMath, Bridge).
-/
import proofs.«422278_j9302899163220_2_alg».proof.Defs
import proofs.«422278_j9302899163220_2_alg».proof.Proof.Gen.Kernel
import proofs.«422278_j9302899163220_2_alg».proof.Proof.Gen.Kernel.Skeleton
import proofs.«422278_j9302899163220_2_alg».proof.Proof.Gen.Kernel.Launch
import proofs.«422278_j9302899163220_2_alg».proof.Proof.Gen.Kernel.Points
import proofs.«422278_j9302899163220_2_alg».proof.Proof.Gen.Kernel.Frame
import proofs.«422278_j9302899163220_2_alg».proof.Proof.Gen.KernelIdeal
import proofs.«422278_j9302899163220_2_alg».proof.Proof.Gen.KernelIdeal.Skeleton
import proofs.«422278_j9302899163220_2_alg».proof.Proof.Gen.KernelIdeal.Launch
import proofs.«422278_j9302899163220_2_alg».proof.Proof.Gen.KernelIdeal.Points
import proofs.«422278_j9302899163220_2_alg».proof.Proof.Gen.KernelIdeal.Frame
import proofs.«422278_j9302899163220_2_alg».proof.Proof.Gen.ReferenceIdeal
import proofs.«422278_j9302899163220_2_alg».proof.Proof.Gen.Pre_finite_inputs
import proofs.«422278_j9302899163220_2_alg».proof.Proof.Gen.KernelIdeal.Value
import proofs.«422278_j9302899163220_2_alg».proof.Proof.Gen.ReferenceIdeal.Run
import proofs.«422278_j9302899163220_2_alg».proof.Proof.Gen.ReferenceIdeal.Read
import proofs.«422278_j9302899163220_2_alg».proof.Proof.PreRead
import proofs.«422278_j9302899163220_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: the ledger is empty. -/
theorem preserves : Cert.preserves_Kernel_KernelIdeal := trivial

/-- Both programs end with the same result array: the kernel's run names its array as the array function of the
    staged arrays, the reference's run names its composed term; under the precondition the two are equal. -/
theorem algebraic : Cert.algebraic_KernelIdeal_ReferenceIdeal := by
  intro m ρ m' ρ' hpre hagree
  refine ⟨_, Cert.KernelIdeal.EdgeArray.run m ρ, ?_⟩
  refine (θ_run Cert.ReferenceIdeal.defs _ _).mono (fun _ h c => ⟨(h c).1.trans ?_, (h c).2⟩)
    (Cert.ReferenceIdeal.Value.run (F := Ideal) m' ρ')
  obtain ⟨hE, hW, hlo, hhi⟩ := Cert.PreRead.decode _ _ _ _ _ _ _ (hpre c)
  rw [Cert.ReferenceIdeal.Read.val_main_v24_eq, (hagree c).1, (hagree c).2.1, (hagree c).2.2.1, (hagree c).2.2.2.1,
    (hagree c).2.2.2.2.1, (hagree c).2.2.2.2.2.1, (hagree c).2.2.2.2.2.2,
    Cert.KernelIdeal.Inputs.V_src m c, Cert.KernelIdeal.Inputs.V_attr m c, Cert.KernelIdeal.Inputs.V_wc m c,
    Cert.KernelIdeal.Inputs.V_wa m c, Cert.KernelIdeal.Inputs.V_b1 m c, Cert.KernelIdeal.Inputs.V_w2 m c,
    Cert.KernelIdeal.Inputs.V_b2 m c]
  exact (Cert.Bridge.out_eq _ _ _ _ _ _ _ hE hW hlo hhi).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
